-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) →
    ∃ (v0 : (c : Dev Cert.KernelIdeal.nD) → Buf (Elt Ideal) ((c.tc : Thread Cert.KernelIdeal.nD Cert.KernelIdeal.τ).loc Cert.KernelIdeal.main_v30)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v30) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v31) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S50000x128 : Shape := ⟨2, ![50000, 128]⟩
abbrev S128x128 : Shape := ⟨2, ![128, 128]⟩
abbrev S1600000 : Shape := ⟨1, ![1600000]⟩
abbrev S_ : Shape := ⟨0, ![]⟩

class Facts : Prop where
  bcast_S_S50000x128 : S_.BroadcastsInDim S50000x128 (![] : Fin 0 → Fin S50000x128.rank)
  reducesTo_S50000x128_S_d0_1 : S50000x128.ReducesTo [0, 1] S_
  h_S_ : 0 < S_.numel
  bcast_S_S128x128 : S_.BroadcastsInDim S128x128 (![] : Fin 0 → Fin S128x128.rank)
  reducesTo_S128x128_S_d0_1 : S128x128.ReducesTo [0, 1] S_

variable [Facts]

def fn_part1 {F : FTy → Type} [FloatOps F] (main_v13 : IVec S_ 1) (main_v16 : IVec S128x128 1) : IVec S_ 1 :=
  let main_c_5 : IVec S_ 1 := constantI S_ 1 1#1
  let main_v17 : IVec S_ 1 := (fun x v => Host.reduce IntOp.andi x v reducesTo_S128x128_S_d0_1 h_S_) main_v16 main_c_5
  let main_v18 : IVec S_ 1 := andi main_v13 main_v17
  main_v18

def fn {F : FTy → Type} [FloatOps F] (main_arg0 : FVec F S50000x128 .f32) (main_arg1 : FVec F S50000x128 .f32) (main_arg2 : FVec F S128x128 .f32) (main_arg3 : FVec F S128x128 .f32) (main_arg4 : IVec S1600000 32) (main_arg5 : IVec S1600000 32) : IVec S_ 1 :=
  let main_v0 : FVec F S50000x128 .f32 := Host.absf main_arg0
  let main_cst : FVec F S_ .f32 := constant S_ .f32 0x7F800000#32
  let main_v1 : FVec F S50000x128 .f32 := broadcastInDim S50000x128 ![] bcast_S_S50000x128 main_cst
  let main_v2 : IVec S50000x128 1 := cmpf .olt main_v0 main_v1
  let main_c : IVec S_ 1 := constantI S_ 1 1#1
  let main_v3 : IVec S_ 1 := (fun x v => Host.reduce IntOp.andi x v reducesTo_S50000x128_S_d0_1 h_S_) main_v2 main_c
  let main_v4 : FVec F S50000x128 .f32 := Host.absf main_arg1
  let main_cst_0 : FVec F S_ .f32 := constant S_ .f32 0x7F800000#32
  let main_v5 : FVec F S50000x128 .f32 := broadcastInDim S50000x128 ![] bcast_S_S50000x128 main_cst_0
  let main_v6 : IVec S50000x128 1 := cmpf .olt main_v4 main_v5
  let main_c_1 : IVec S_ 1 := constantI S_ 1 1#1
  let main_v7 : IVec S_ 1 := (fun x v => Host.reduce IntOp.andi x v reducesTo_S50000x128_S_d0_1 h_S_) main_v6 main_c_1
  let main_v8 : IVec S_ 1 := andi main_v3 main_v7
  let main_v9 : FVec F S128x128 .f32 := Host.absf main_arg2
  let main_cst_2 : FVec F S_ .f32 := constant S_ .f32 0x7F800000#32
  let main_v10 : FVec F S128x128 .f32 := broadcastInDim S128x128 ![] bcast_S_S128x128 main_cst_2
  let main_v11 : IVec S128x128 1 := cmpf .olt main_v9 main_v10
  let main_c_3 : IVec S_ 1 := constantI S_ 1 1#1
  let main_v12 : IVec S_ 1 := (fun x v => Host.reduce IntOp.andi x v reducesTo_S128x128_S_d0_1 h_S_) main_v11 main_c_3
  let main_v13 : IVec S_ 1 := andi main_v8 main_v12
  let main_v14 : FVec F S128x128 .f32 := Host.absf main_arg3
  let main_cst_4 : FVec F S_ .f32 := constant S_ .f32 0x7F800000#32
  let main_v15 : FVec F S128x128 .f32 := broadcastInDim S128x128 ![] bcast_S_S128x128 main_cst_4
  let main_v16 : IVec S128x128 1 := cmpf .olt main_v14 main_v15
  fn_part1 (F := F) main_v13 main_v16
-- ==== Kernel.lean ====
abbrev S50000x128 : Shape := ⟨2, ![50000, 128]⟩
abbrev S128x128 : Shape := ⟨2, ![128, 128]⟩
abbrev S1600000 : Shape := ⟨1, ![1600000]⟩
abbrev S_ : Shape := ⟨0, ![]⟩
abbrev S100000 : Shape := ⟨1, ![100000]⟩
abbrev S1600000x1 : Shape := ⟨2, ![1600000, 1]⟩
abbrev S100000x1 : Shape := ⟨2, ![100000, 1]⟩
abbrev S50000x1 : Shape := ⟨2, ![50000, 1]⟩
abbrev S5000x128 : Shape := ⟨2, ![5000, 128]⟩
abbrev S5000x1 : Shape := ⟨2, ![5000, 1]⟩
abbrev S100000x128 : Shape := ⟨2, ![100000, 128]⟩
abbrev S1600000x128 : Shape := ⟨2, ![1600000, 128]⟩

abbrev nBuf : Space → Nat
  | .hbm => 51
  | .vmem => 20
  | .smem => 0
  | _ => 0

abbrev bufTy : (tb : Table) → Fin (tcTables nBuf tb) → BufTy
  | .hbm, ⟨0, _⟩ => ⟨S50000x128, .f32⟩
  | .hbm, ⟨1, _⟩ => ⟨S50000x128, .f32⟩
  | .hbm, ⟨2, _⟩ => ⟨S128x128, .f32⟩
  | .hbm, ⟨3, _⟩ => ⟨S128x128, .f32⟩
  | .hbm, ⟨4, _⟩ => ⟨S1600000, .i32⟩
  | .hbm, ⟨5, _⟩ => ⟨S1600000, .i32⟩
  | .hbm, ⟨6, _⟩ => ⟨S_, .f32⟩
  | .hbm, ⟨7, _⟩ => ⟨S1600000, .f32⟩
  | .hbm, ⟨8, _⟩ => ⟨S_, .f32⟩
  | .hbm, ⟨9, _⟩ => ⟨S100000, .f32⟩
  | .hbm, ⟨10, _⟩ => ⟨S1600000x1, .i32⟩
  | .hbm, ⟨11, _⟩ => ⟨S100000, .f32⟩
  | .hbm, ⟨12, _⟩ => ⟨S_, .f32⟩
  | .hbm, ⟨13, _⟩ => ⟨S_, .f32⟩
  | .hbm, ⟨14, _⟩ => ⟨S100000, .f32⟩
  | .hbm, ⟨15, _⟩ => ⟨S100000, .f32⟩
  | .hbm, ⟨16, _⟩ => ⟨S_, .f32⟩
  | .hbm, ⟨17, _⟩ => ⟨S100000, .f32⟩
  | .hbm, ⟨18, _⟩ => ⟨S1600000x1, .i32⟩
  | .hbm, ⟨19, _⟩ => ⟨S100000, .f32⟩
  | .hbm, ⟨20, _⟩ => ⟨S_, .f32⟩
  | .hbm, ⟨21, _⟩ => ⟨S_, .f32⟩
  | .hbm, ⟨22, _⟩ => ⟨S100000, .f32⟩
  | .hbm, ⟨23, _⟩ => ⟨S100000, .f32⟩
  | .hbm, ⟨24, _⟩ => ⟨S_, .f32⟩
  | .hbm, ⟨25, _⟩ => ⟨S100000, .f32⟩
  | .hbm, ⟨26, _⟩ => ⟨S100000, .f32⟩
  | .hbm, ⟨27, _⟩ => ⟨S100000x1, .f32⟩
  | .hbm, ⟨28, _⟩ => ⟨S_, .f32⟩
  | .hbm, ⟨29, _⟩ => ⟨S100000, .f32⟩
  | .hbm, ⟨30, _⟩ => ⟨S100000, .f32⟩
  | .hbm, ⟨31, _⟩ => ⟨S100000x1, .f32⟩
  | .hbm, ⟨32, _⟩ => ⟨S50000x1, .f32⟩
  | .hbm, ⟨33, _⟩ => ⟨S50000x1, .f32⟩
  | .hbm, ⟨34, _⟩ => ⟨S50000x128, .f32⟩
  | .hbm, ⟨35, _⟩ => ⟨S50000x128, .f32⟩
  | .hbm, ⟨36, _⟩ => ⟨S100000x128, .f32⟩
  | .hbm, ⟨37, _⟩ => ⟨S_, .i32⟩
  | .hbm, ⟨38, _⟩ => ⟨S1600000, .i32⟩
  | .hbm, ⟨39, _⟩ => ⟨S1600000, .i1⟩
  | .hbm, ⟨40, _⟩ => ⟨S_, .i32⟩
  | .hbm, ⟨41, _⟩ => ⟨S1600000, .i32⟩
  | .hbm, ⟨42, _⟩ => ⟨S1600000, .i32⟩
  | .hbm, ⟨43, _⟩ => ⟨S1600000, .i32⟩
  | .hbm, ⟨44, _⟩ => ⟨S1600000x1, .i32⟩
  | .hbm, ⟨45, _⟩ => ⟨S1600000x128, .f32⟩
  | .hbm, ⟨46, _⟩ => ⟨S_, .f32⟩
  | .hbm, ⟨47, _⟩ => ⟨S100000x128, .f32⟩
  | .hbm, ⟨48, _⟩ => ⟨S1600000x1, .i32⟩
  | .hbm, ⟨49, _⟩ => ⟨S100000x128, .f32⟩
  | .hbm, ⟨50, _⟩ => ⟨S100000x128, .f32⟩
  | .local _ .vmem, ⟨0, _⟩ => ⟨S5000x128, .f32⟩
  | .local _ .vmem, ⟨1, _⟩ => ⟨S5000x128, .f32⟩
  | .local _ .vmem, ⟨2, _⟩ => ⟨S128x128, .f32⟩
  | .local _ .vmem, ⟨3, _⟩ => ⟨S5000x1, .f32⟩
  | .local _ .vmem, ⟨4, _⟩ => ⟨S5000x1, .f32⟩
  | .local _ .vmem, ⟨5, _⟩ => ⟨S5000x128, .f32⟩
  | .local _ .vmem, ⟨6, _⟩ => ⟨S5000x128, .f32⟩
  | .local _ .vmem, ⟨7, _⟩ => ⟨S5000x128, .f32⟩
  | .local _ .vmem, ⟨8, _⟩ => ⟨S5000x128, .f32⟩
  | .local _ .vmem, ⟨9, _⟩ => ⟨S128x128, .f32⟩
  | .local _ .vmem, ⟨10, _⟩ => ⟨S5000x1, .f32⟩
  | .local _ .vmem, ⟨11, _⟩ => ⟨S5000x1, .f32⟩
  | .local _ .vmem, ⟨12, _⟩ => ⟨S5000x128, .f32⟩
  | .local _ .vmem, ⟨13, _⟩ => ⟨S5000x128, .f32⟩
  | .local _ .vmem, ⟨14, _⟩ => ⟨S5000x128, .f32⟩
  | .local _ .vmem, ⟨15, _⟩ => ⟨S5000x128, .f32⟩
  | .local _ .vmem, ⟨16, _⟩ => ⟨S5000x1, .f32⟩
  | .local _ .vmem, ⟨17, _⟩ => ⟨S5000x1, .f32⟩
  | .local _ .vmem, ⟨18, _⟩ => ⟨S5000x128, .f32⟩
  | .local _ .vmem, ⟨19, _⟩ => ⟨S5000x128, .f32⟩
  | _, _ => ⟨S50000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | _, _ => false

abbrev semScoped : Fin 0 → Bool
  | ⟨_, h⟩ => absurd h (Nat.not_lt_zero _)

abbrev dmaSemScoped : Fin 20 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | _ => false

abbrev sig : RefSig :=
  ofTc nBuf bufTy 0 20 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_cst : Ref sig .tc := ⟨.hbm, 6, rfl⟩
abbrev main_v0 : Ref sig .tc := ⟨.hbm, 7, rfl⟩
abbrev main_cst_0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_cst_1 : Ref sig .tc := ⟨.hbm, 12, rfl⟩
abbrev main_call0_v0 : Ref sig .tc := ⟨.hbm, 13, rfl⟩
abbrev main_call0_v1 : Ref sig .tc := ⟨.hbm, 14, rfl⟩
abbrev main_v4 : Ref sig .tc := ⟨.hbm, 15, rfl⟩
abbrev main_cst_2 : Ref sig .tc := ⟨.hbm, 16, rfl⟩
abbrev main_v5 : Ref sig .tc := ⟨.hbm, 17, rfl⟩
abbrev main_v6 : Ref sig .tc := ⟨.hbm, 18, rfl⟩
abbrev main_v7 : Ref sig .tc := ⟨.hbm, 19, rfl⟩
abbrev main_cst_3 : Ref sig .tc := ⟨.hbm, 20, rfl⟩
abbrev main_call1_v0 : Ref sig .tc := ⟨.hbm, 21, rfl⟩
abbrev main_call1_v1 : Ref sig .tc := ⟨.hbm, 22, rfl⟩
abbrev main_v8 : Ref sig .tc := ⟨.hbm, 23, rfl⟩
abbrev main_cst_4 : Ref sig .tc := ⟨.hbm, 24, rfl⟩
abbrev main_v9 : Ref sig .tc := ⟨.hbm, 25, rfl⟩
abbrev main_v10 : Ref sig .tc := ⟨.hbm, 26, rfl⟩
abbrev main_v11 : Ref sig .tc := ⟨.hbm, 27, rfl⟩
abbrev main_cst_5 : Ref sig .tc := ⟨.hbm, 28, rfl⟩
abbrev main_v12 : Ref sig .tc := ⟨.hbm, 29, rfl⟩
abbrev main_v13 : Ref sig .tc := ⟨.hbm, 30, rfl⟩
abbrev main_v14 : Ref sig .tc := ⟨.hbm, 31, rfl⟩
abbrev main_v15 : Ref sig .tc := ⟨.hbm, 32, rfl⟩
abbrev main_v16 : Ref sig .tc := ⟨.hbm, 33, rfl⟩
abbrev main_v17 : Ref sig .tc := ⟨.hbm, 34, rfl⟩
abbrev main_v18 : Ref sig .tc := ⟨.hbm, 35, rfl⟩
abbrev main_v19 : Ref sig .tc := ⟨.hbm, 36, rfl⟩
abbrev main_c : Ref sig .tc := ⟨.hbm, 37, rfl⟩
abbrev main_v20 : Ref sig .tc := ⟨.hbm, 38, rfl⟩
abbrev main_v21 : Ref sig .tc := ⟨.hbm, 39, rfl⟩
abbrev main_c_6 : Ref sig .tc := ⟨.hbm, 40, rfl⟩
abbrev main_v22 : Ref sig .tc := ⟨.hbm, 41, rfl⟩
abbrev main_v23 : Ref sig .tc := ⟨.hbm, 42, rfl⟩
abbrev main_v24 : Ref sig .tc := ⟨.hbm, 43, rfl⟩
abbrev main_v25 : Ref sig .tc := ⟨.hbm, 44, rfl⟩
abbrev main_v26 : Ref sig .tc := ⟨.hbm, 45, rfl⟩
abbrev main_cst_7 : Ref sig .tc := ⟨.hbm, 46, rfl⟩
abbrev main_v27 : Ref sig .tc := ⟨.hbm, 47, rfl⟩
abbrev main_v28 : Ref sig .tc := ⟨.hbm, 48, rfl⟩
abbrev main_v29 : Ref sig .tc := ⟨.hbm, 49, rfl⟩
abbrev main_v30 : Ref sig .tc := ⟨.hbm, 50, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc1_stg0_0 : Ref sig .tc := ⟨.vmem, 7, rfl⟩
abbrev cc1_stg0_1 : Ref sig .tc := ⟨.vmem, 8, rfl⟩
abbrev cc1_stg1_0 : Ref sig .tc := ⟨.vmem, 9, rfl⟩
abbrev cc1_stg2_0 : Ref sig .tc := ⟨.vmem, 10, rfl⟩
abbrev cc1_stg2_1 : Ref sig .tc := ⟨.vmem, 11, rfl⟩
abbrev cc1_stg3_0 : Ref sig .tc := ⟨.vmem, 12, rfl⟩
abbrev cc1_stg3_1 : Ref sig .tc := ⟨.vmem, 13, rfl⟩
abbrev cc2_stg0_0 : Ref sig .tc := ⟨.vmem, 14, rfl⟩
abbrev cc2_stg0_1 : Ref sig .tc := ⟨.vmem, 15, rfl⟩
abbrev cc2_stg1_0 : Ref sig .tc := ⟨.vmem, 16, rfl⟩
abbrev cc2_stg1_1 : Ref sig .tc := ⟨.vmem, 17, rfl⟩
abbrev cc2_stg2_0 : Ref sig .tc := ⟨.vmem, 18, rfl⟩
abbrev cc2_stg2_1 : Ref sig .tc := ⟨.vmem, 19, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc1_sem0_0 : DmaSem sig := 7
abbrev cc1_sem0_1 : DmaSem sig := 8
abbrev cc1_sem1_0 : DmaSem sig := 9
abbrev cc1_sem2_0 : DmaSem sig := 10
abbrev cc1_sem2_1 : DmaSem sig := 11
abbrev cc1_sem3_0 : DmaSem sig := 12
abbrev cc1_sem3_1 : DmaSem sig := 13
abbrev cc2_sem0_0 : DmaSem sig := 14
abbrev cc2_sem0_1 : DmaSem sig := 15
abbrev cc2_sem1_0 : DmaSem sig := 16
abbrev cc2_sem1_1 : DmaSem sig := 17
abbrev cc2_sem2_0 : DmaSem sig := 18
abbrev cc2_sem2_1 : DmaSem sig := 19

abbrev nD : Nat := 1
abbrev τ : Topo := Topo.v7x

variable {F : FTy → Type} [FloatOps F]

abbrev grid0 : Pipeline.Grid := ⟨1, ![10], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S5000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S128x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S5000x1 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S5000x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev grid1 : Pipeline.Grid := ⟨1, ![10], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_3 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S5000x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S128x128 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 2 → Memref sig .tc .vmem S5000x1 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev stage1_3 : Fin 2 → Memref sig .tc .vmem S5000x128 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true]

abbrev grid2 : Pipeline.Grid := ⟨1, ![20], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_2 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S5000x128 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 2 → Memref sig .tc .vmem S5000x1 .f32 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![true]

abbrev stage2_2 : Fin 2 → Memref sig .tc .vmem S5000x128 .f32 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true]

class Facts₀ : Prop where
  bcast_S_S1600000 : S_.BroadcastsInDim S1600000 (![] : Fin 0 → Fin S1600000.rank)
  bcast_S_S100000 : S_.BroadcastsInDim S100000 (![] : Fin 0 → Fin S100000.rank)
  bcast_S1600000_S1600000x1_0 : S1600000.BroadcastsInDim S1600000x1 (![0] : Fin 1 → Fin S1600000x1.rank)
  shapeCasts_S100000_S100000x1 : S100000.ShapeCasts S100000x1
  slices_S100000x1_S50000x1_0_0 : S100000x1.Slices ![0, 0] S50000x1
  slices_S100000x1_S50000x1_50000_0 : S100000x1.Slices ![50000, 0] S50000x1
  inb_S5000x128_S5000x128_0_0 : ∀ a, (![0, 0] : Fin 2 → Nat) a + S5000x128.size a ≤ S5000x128.size a
  h_S5000x128 : 0 < S5000x128.numel
  bitsLt_bf16_f32 : FTy.bits .bf16 < FTy.bits .f32
  inb_S128x128_S128x128_0_0 : ∀ a, (![0, 0] : Fin 2 → Nat) a + S128x128.size a ≤ S128x128.size a
  h_S128x128 : 0 < S128x128.numel
  inb_S5000x1_S5000x1_0_0 : ∀ a, (![0, 0] : Fin 2 → Nat) a + S5000x1.size a ≤ S5000x1.size a
  h_S5000x1 : 0 < S5000x1.numel
  shapeCasts_S5000x1_S5000x1 : S5000x1.ShapeCasts S5000x1
  broadcasts_S5000x1_S5000x128 : S5000x1.Broadcasts S5000x128
  concatenates_S50000x128_S50000x128_S100000x128_d0 : Shape.Concatenates [S50000x128, S50000x128] S100000x128 0
  bcast_S_S100000x128 : S_.BroadcastsInDim S100000x128 (![] : Fin 0 → Fin S100000x128.rank)
  shapeCasts_S5000x128_S5000x128 : S5000x128.ShapeCasts S5000x128
  scatter_S100000_S1600000x1_S1600000_n_0_0_1_wf : ScatterDims.WF S100000 S1600000x1 S1600000 [] [0] [0] 1
  dot_S5000x128_S128x128_S5000x128_1_0_0_1_n_n_wf : DotDims.WF S5000x128 S128x128 S5000x128 [1] [0] [0] [1] [] []
  gather_S100000x128_S1600000x1_S1600000x128_1_0_n_n_0_1_1128_wf : GatherDims.WF S100000x128 S1600000x1 S1600000x128 [1] [0] [] [0] [] 1 ![1, 128]
  scatter_S100000x128_S1600000x1_S1600000x128_1_0_0_1_wf : ScatterDims.WF S100000x128 S1600000x1 S1600000x128 [1] [0] [0] 1
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S5000x128.size a ≤ S50000x128.size a
  hwx0_0 : ∀ i : grid0.Coords, EltTy.bits .f32 = 32 ∨ (Rect.block (s := S50000x128) S5000x128.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S128x128.size a ≤ S128x128.size a
  hwx0_1 : ∀ i : grid0.Coords, EltTy.bits .f32 = 32 ∨ (Rect.block (s := S128x128) S128x128.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S5000x1.size a ≤ S50000x1.size a
  hwx0_2 : ∀ i : grid0.Coords, EltTy.bits .f32 = 32 ∨ (Rect.block (s := S50000x1) S5000x1.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S5000x128.size a ≤ S50000x128.size a
  hwx0_3 : ∀ i : grid0.Coords, EltTy.bits .f32 = 32 ∨ (Rect.block (s := S50000x128) S5000x128.size (cc0_transform_3 i) (hinb0_3 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S5000x128.size a ≤ S50000x128.size a
  hwx1_0 : ∀ i : grid1.Coords, EltTy.bits .f32 = 32 ∨ (Rect.block (s := S50000x128) S5000x128.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S128x128.size a ≤ S128x128.size a
  hwx1_1 : ∀ i : grid1.Coords, EltTy.bits .f32 = 32 ∨ (Rect.block (s := S128x128) S128x128.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S5000x1.size a ≤ S50000x1.size a
  hwx1_2 : ∀ i : grid1.Coords, EltTy.bits .f32 = 32 ∨ (Rect.block (s := S50000x1) S5000x1.size (cc1_transform_2 i) (hinb1_2 i)).WholeWords (EltTy.packing .f32)
  hstage1_3 : ∀ j, (stage1_3 j).IsWhole
  nbuf1_3 : grid1.bufCount reads1_3 false = 2
  hreads1_3 : ∀ i i' : grid1.Coords, (∀ a, reads1_3 a = true → i a = i' a) → cc1_transform_3 i = cc1_transform_3 i'
  hinb1_3 : ∀ (i : grid1.Coords) a, (cc1_transform_3 i a + 1) * S5000x128.size a ≤ S50000x128.size a
  hwx1_3 : ∀ i : grid1.Coords, EltTy.bits .f32 = 32 ∨ (Rect.block (s := S50000x128) S5000x128.size (cc1_transform_3 i) (hinb1_3 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S5000x128.size a ≤ S100000x128.size a
  hwx2_0 : ∀ i : grid2.Coords, EltTy.bits .f32 = 32 ∨ (Rect.block (s := S100000x128) S5000x128.size (cc2_transform_0 i) (hinb2_0 i)).WholeWords (EltTy.packing .f32)
  hstage2_1 : ∀ j, (stage2_1 j).IsWhole
  nbuf2_1 : grid2.bufCount reads2_1 false = 2
  hreads2_1 : ∀ i i' : grid2.Coords, (∀ a, reads2_1 a = true → i a = i' a) → cc2_transform_1 i = cc2_transform_1 i'
  hinb2_1 : ∀ (i : grid2.Coords) a, (cc2_transform_1 i a + 1) * S5000x1.size a ≤ S100000x1.size a
  hwx2_1 : ∀ i : grid2.Coords, EltTy.bits .f32 = 32 ∨ (Rect.block (s := S100000x1) S5000x1.size (cc2_transform_1 i) (hinb2_1 i)).WholeWords (EltTy.packing .f32)
  hstage2_2 : ∀ j, (stage2_2 j).IsWhole
  nbuf2_2 : grid2.bufCount reads2_2 false = 2
  hreads2_2 : ∀ i i' : grid2.Coords, (∀ a, reads2_2 a = true → i a = i' a) → cc2_transform_2 i = cc2_transform_2 i'
  hinb2_2 : ∀ (i : grid2.Coords) a, (cc2_transform_2 i a + 1) * S5000x128.size a ≤ S100000x128.size a
  hwx2_2 : ∀ i : grid2.Coords, EltTy.bits .f32 = 32 ∨ (Rect.block (s := S100000x128) S5000x128.size (cc2_transform_2 i) (hinb2_2 i)).WholeWords (EltTy.packing .f32)

variable [Facts₀]

def scatter_S100000_S1600000x1_S1600000_n_0_0_1 : ScatterDims S100000 S1600000x1 S1600000 where
  updateWindowDims := []
  insertedWindowDims := [0]
  scatterDimsToOperandDims := [0]
  indexVectorDim := 1
  wf := scatter_S100000_S1600000x1_S1600000_n_0_0_1_wf
def dot_S5000x128_S128x128_S5000x128_1_0_0_1_n_n : DotDims S5000x128 S128x128 S5000x128 where
  lhsContracting := [1]
  rhsContracting := [0]
  lhsNonContracting := [0]
  rhsNonContracting := [1]
  lhsBatch := []
  rhsBatch := []
  wf := dot_S5000x128_S128x128_S5000x128_1_0_0_1_n_n_wf
def gather_S100000x128_S1600000x1_S1600000x128_1_0_n_n_0_1_1128 : GatherDims S100000x128 S1600000x1 S1600000x128 where
  offsetDims := [1]
  collapsedSliceDims := [0]
  operandBatchingDims := []
  startIndicesBatchingDims := []
  startIndexMap := [0]
  indexVectorDim := 1
  sliceSizes := ![1, 128]
  wf := gather_S100000x128_S1600000x1_S1600000x128_1_0_n_n_0_1_1128_wf
def scatter_S100000x128_S1600000x1_S1600000x128_1_0_0_1 : ScatterDims S100000x128 S1600000x1 S1600000x128 where
  updateWindowDims := [1]
  insertedWindowDims := [0]
  scatterDimsToOperandDims := [0]
  indexVectorDim := 1
  wf := scatter_S100000x128_S1600000x1_S1600000x128_1_0_0_1_wf

abbrev win0_0 : Pipeline.Window sig grid0 :=
  Pipeline.Window.ofSpec (Memref.whole main_arg0) S5000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg2) S128x128.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v15) S5000x1.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v17) S5000x128.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

abbrev win1_0 : Pipeline.Window sig grid1 :=
  Pipeline.Window.ofSpec (Memref.whole main_arg1) S5000x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_arg3) S128x128.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_v16) S5000x1.size cc1_transform_2 reads1_2 false false 2 stage1_2 sem1_2
    hrank1 hreads1_2 hinb1_2 nbuf1_2 (Memref.isWhole_whole _) hwx1_2 hstage1_2

abbrev win1_3 : Pipeline.Window sig grid1 :=
  Pipeline.Window.ofSpec (Memref.whole main_v18) S5000x128.size cc1_transform_3 reads1_3 true false 2 stage1_3 sem1_3
    hrank1 hreads1_3 hinb1_3 nbuf1_3 (Memref.isWhole_whole _) hwx1_3 hstage1_3

abbrev win1 : Fin 4 → Pipeline.Window sig grid1 := fun | 0 => win1_0 | 1 => win1_1 | 2 => win1_2 | 3 => win1_3 | ⟨_ + 4, h⟩ => absurd h (Nat.not_lt.2 (Nat.le_add_left _ _))
abbrev spec1 : Fin 4 → Pipeline.WinSpec sig grid1.rank := fun w => (win1 w).toWinSpec

abbrev win2_0 : Pipeline.Window sig grid2 :=
  Pipeline.Window.ofSpec (Memref.whole main_v29) S5000x128.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v14) S5000x1.size cc2_transform_1 reads2_1 false false 2 stage2_1 sem2_1
    hrank2 hreads2_1 hinb2_1 nbuf2_1 (Memref.isWhole_whole _) hwx2_1 hstage2_1

abbrev win2_2 : Pipeline.Window sig grid2 :=
  Pipeline.Window.ofSpec (Memref.whole main_v30) S5000x128.size cc2_transform_2 reads2_2 true false 2 stage2_2 sem2_2
    hrank2 hreads2_2 hinb2_2 nbuf2_2 (Memref.isWhole_whole _) hwx2_2 hstage2_2

abbrev win2 : Fin 3 → Pipeline.Window sig grid2 := fun | 0 => win2_0 | 1 => win2_1 | 2 => win2_2 | ⟨_ + 3, h⟩ => absurd h (Nat.not_lt.2 (Nat.le_add_left _ _))
abbrev spec2 : Fin 3 → Pipeline.WinSpec sig grid2.rank := fun w => (win2 w).toWinSpec

class Facts : Prop extends Facts₀ where

variable [Facts]
-- ==== ReferenceIdeal.lean ====
abbrev S50000x128 : Shape := ⟨2, ![50000, 128]⟩
abbrev S128x128 : Shape := ⟨2, ![128, 128]⟩
abbrev S1600000 : Shape := ⟨1, ![1600000]⟩
abbrev S100000x128 : Shape := ⟨2, ![100000, 128]⟩
abbrev S_ : Shape := ⟨0, ![]⟩
abbrev S100000 : Shape := ⟨1, ![100000]⟩
abbrev S1600000x1 : Shape := ⟨2, ![1600000, 1]⟩
abbrev S100000x1 : Shape := ⟨2, ![100000, 1]⟩
abbrev S1600000x128 : Shape := ⟨2, ![1600000, 128]⟩

abbrev nBuf : Space → Nat
  | .hbm => 52
  | .vmem => 0
  | .smem => 0
  | _ => 0

abbrev bufTy : (tb : Table) → Fin (tcTables nBuf tb) → BufTy
  | .hbm, ⟨0, _⟩ => ⟨S50000x128, .f32⟩
  | .hbm, ⟨1, _⟩ => ⟨S50000x128, .f32⟩
  | .hbm, ⟨2, _⟩ => ⟨S128x128, .f32⟩
  | .hbm, ⟨3, _⟩ => ⟨S128x128, .f32⟩
  | .hbm, ⟨4, _⟩ => ⟨S1600000, .i32⟩
  | .hbm, ⟨5, _⟩ => ⟨S1600000, .i32⟩
  | .hbm, ⟨6, _⟩ => ⟨S50000x128, .f32⟩
  | .hbm, ⟨7, _⟩ => ⟨S50000x128, .f32⟩
  | .hbm, ⟨8, _⟩ => ⟨S100000x128, .f32⟩
  | .hbm, ⟨9, _⟩ => ⟨S_, .f32⟩
  | .hbm, ⟨10, _⟩ => ⟨S1600000, .f32⟩
  | .hbm, ⟨11, _⟩ => ⟨S_, .f32⟩
  | .hbm, ⟨12, _⟩ => ⟨S100000, .f32⟩
  | .hbm, ⟨13, _⟩ => ⟨S1600000x1, .i32⟩
  | .hbm, ⟨14, _⟩ => ⟨S100000, .f32⟩
  | .hbm, ⟨15, _⟩ => ⟨S_, .f32⟩
  | .hbm, ⟨16, _⟩ => ⟨S_, .f32⟩
  | .hbm, ⟨17, _⟩ => ⟨S100000, .f32⟩
  | .hbm, ⟨18, _⟩ => ⟨S100000, .f32⟩
  | .hbm, ⟨19, _⟩ => ⟨S_, .f32⟩
  | .hbm, ⟨20, _⟩ => ⟨S100000, .f32⟩
  | .hbm, ⟨21, _⟩ => ⟨S100000, .f32⟩
  | .hbm, ⟨22, _⟩ => ⟨S100000x1, .f32⟩
  | .hbm, ⟨23, _⟩ => ⟨S100000x128, .f32⟩
  | .hbm, ⟨24, _⟩ => ⟨S100000x128, .f32⟩
  | .hbm, ⟨25, _⟩ => ⟨S_, .i32⟩
  | .hbm, ⟨26, _⟩ => ⟨S1600000, .i32⟩
  | .hbm, ⟨27, _⟩ => ⟨S1600000, .i1⟩
  | .hbm, ⟨28, _⟩ => ⟨S_, .i32⟩
  | .hbm, ⟨29, _⟩ => ⟨S1600000, .i32⟩
  | .hbm, ⟨30, _⟩ => ⟨S1600000, .i32⟩
  | .hbm, ⟨31, _⟩ => ⟨S1600000, .i32⟩
  | .hbm, ⟨32, _⟩ => ⟨S1600000x1, .i32⟩
  | .hbm, ⟨33, _⟩ => ⟨S1600000x128, .f32⟩
  | .hbm, ⟨34, _⟩ => ⟨S_, .f32⟩
  | .hbm, ⟨35, _⟩ => ⟨S100000x128, .f32⟩
  | .hbm, ⟨36, _⟩ => ⟨S1600000x1, .i32⟩
  | .hbm, ⟨37, _⟩ => ⟨S100000x128, .f32⟩
  | .hbm, ⟨38, _⟩ => ⟨S_, .f32⟩
  | .hbm, ⟨39, _⟩ => ⟨S100000, .f32⟩
  | .hbm, ⟨40, _⟩ => ⟨S1600000x1, .i32⟩
  | .hbm, ⟨41, _⟩ => ⟨S100000, .f32⟩
  | .hbm, ⟨42, _⟩ => ⟨S_, .f32⟩
  | .hbm, ⟨43, _⟩ => ⟨S_, .f32⟩
  | .hbm, ⟨44, _⟩ => ⟨S100000, .f32⟩
  | .hbm, ⟨45, _⟩ => ⟨S100000, .f32⟩
  | .hbm, ⟨46, _⟩ => ⟨S_, .f32⟩
  | .hbm, ⟨47, _⟩ => ⟨S100000, .f32⟩
  | .hbm, ⟨48, _⟩ => ⟨S100000, .f32⟩
  | .hbm, ⟨49, _⟩ => ⟨S100000x1, .f32⟩
  | .hbm, ⟨50, _⟩ => ⟨S100000x128, .f32⟩
  | .hbm, ⟨51, _⟩ => ⟨S100000x128, .f32⟩
  | _, _ => ⟨S50000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_cst : Ref sig .tc := ⟨.hbm, 9, rfl⟩
abbrev main_v3 : Ref sig .tc := ⟨.hbm, 10, rfl⟩
abbrev main_cst_0 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_cst_1 : Ref sig .tc := ⟨.hbm, 15, rfl⟩
abbrev main_call0_v0 : Ref sig .tc := ⟨.hbm, 16, rfl⟩
abbrev main_call0_v1 : Ref sig .tc := ⟨.hbm, 17, rfl⟩
abbrev main_v7 : Ref sig .tc := ⟨.hbm, 18, rfl⟩
abbrev main_cst_2 : Ref sig .tc := ⟨.hbm, 19, rfl⟩
abbrev main_v8 : Ref sig .tc := ⟨.hbm, 20, rfl⟩
abbrev main_v9 : Ref sig .tc := ⟨.hbm, 21, rfl⟩
abbrev main_v10 : Ref sig .tc := ⟨.hbm, 22, rfl⟩
abbrev main_v11 : Ref sig .tc := ⟨.hbm, 23, rfl⟩
abbrev main_v12 : Ref sig .tc := ⟨.hbm, 24, rfl⟩
abbrev main_c : Ref sig .tc := ⟨.hbm, 25, rfl⟩
abbrev main_v13 : Ref sig .tc := ⟨.hbm, 26, rfl⟩
abbrev main_v14 : Ref sig .tc := ⟨.hbm, 27, rfl⟩
abbrev main_c_3 : Ref sig .tc := ⟨.hbm, 28, rfl⟩
abbrev main_v15 : Ref sig .tc := ⟨.hbm, 29, rfl⟩
abbrev main_v16 : Ref sig .tc := ⟨.hbm, 30, rfl⟩
abbrev main_v17 : Ref sig .tc := ⟨.hbm, 31, rfl⟩
abbrev main_v18 : Ref sig .tc := ⟨.hbm, 32, rfl⟩
abbrev main_v19 : Ref sig .tc := ⟨.hbm, 33, rfl⟩
abbrev main_cst_4 : Ref sig .tc := ⟨.hbm, 34, rfl⟩
abbrev main_v20 : Ref sig .tc := ⟨.hbm, 35, rfl⟩
abbrev main_v21 : Ref sig .tc := ⟨.hbm, 36, rfl⟩
abbrev main_v22 : Ref sig .tc := ⟨.hbm, 37, rfl⟩
abbrev main_cst_5 : Ref sig .tc := ⟨.hbm, 38, rfl⟩
abbrev main_v23 : Ref sig .tc := ⟨.hbm, 39, rfl⟩
abbrev main_v24 : Ref sig .tc := ⟨.hbm, 40, rfl⟩
abbrev main_v25 : Ref sig .tc := ⟨.hbm, 41, rfl⟩
abbrev main_cst_6 : Ref sig .tc := ⟨.hbm, 42, rfl⟩
abbrev main_call1_v0 : Ref sig .tc := ⟨.hbm, 43, rfl⟩
abbrev main_call1_v1 : Ref sig .tc := ⟨.hbm, 44, rfl⟩
abbrev main_v26 : Ref sig .tc := ⟨.hbm, 45, rfl⟩
abbrev main_cst_7 : Ref sig .tc := ⟨.hbm, 46, rfl⟩
abbrev main_v27 : Ref sig .tc := ⟨.hbm, 47, rfl⟩
abbrev main_v28 : Ref sig .tc := ⟨.hbm, 48, rfl⟩
abbrev main_v29 : Ref sig .tc := ⟨.hbm, 49, rfl⟩
abbrev main_v30 : Ref sig .tc := ⟨.hbm, 50, rfl⟩
abbrev main_v31 : Ref sig .tc := ⟨.hbm, 51, rfl⟩

abbrev nD : Nat := 1
abbrev τ : Topo := Topo.v7x

variable {F : FTy → Type} [FloatOps F]

class Facts₀ : Prop where
  concatenates_S50000x128_S50000x128_S100000x128_d0 : Shape.Concatenates [S50000x128, S50000x128] S100000x128 0
  bcast_S_S1600000 : S_.BroadcastsInDim S1600000 (![] : Fin 0 → Fin S1600000.rank)
  bcast_S_S100000 : S_.BroadcastsInDim S100000 (![] : Fin 0 → Fin S100000.rank)
  bcast_S1600000_S1600000x1_0 : S1600000.BroadcastsInDim S1600000x1 (![0] : Fin 1 → Fin S1600000x1.rank)
  bcast_S100000_S100000x1_0 : S100000.BroadcastsInDim S100000x1 (![0] : Fin 1 → Fin S100000x1.rank)
  bcast_S100000x1_S100000x128_0_1 : S100000x1.BroadcastsInDim S100000x128 (![0, 1] : Fin 2 → Fin S100000x128.rank)
  bcast_S_S100000x128 : S_.BroadcastsInDim S100000x128 (![] : Fin 0 → Fin S100000x128.rank)
  dot_S50000x128_S128x128_S50000x128_1_0_0_1_n_n_wf : DotDims.WF S50000x128 S128x128 S50000x128 [1] [0] [0] [1] [] []
  scatter_S100000_S1600000x1_S1600000_n_0_0_1_wf : ScatterDims.WF S100000 S1600000x1 S1600000 [] [0] [0] 1
  gather_S100000x128_S1600000x1_S1600000x128_1_0_n_n_0_1_1128_wf : GatherDims.WF S100000x128 S1600000x1 S1600000x128 [1] [0] [] [0] [] 1 ![1, 128]
  scatter_S100000x128_S1600000x1_S1600000x128_1_0_0_1_wf : ScatterDims.WF S100000x128 S1600000x1 S1600000x128 [1] [0] [0] 1

variable [Facts₀]

def dot_S50000x128_S128x128_S50000x128_1_0_0_1_n_n : DotDims S50000x128 S128x128 S50000x128 where
  lhsContracting := [1]
  rhsContracting := [0]
  lhsNonContracting := [0]
  rhsNonContracting := [1]
  lhsBatch := []
  rhsBatch := []
  wf := dot_S50000x128_S128x128_S50000x128_1_0_0_1_n_n_wf
def scatter_S100000_S1600000x1_S1600000_n_0_0_1 : ScatterDims S100000 S1600000x1 S1600000 where
  updateWindowDims := []
  insertedWindowDims := [0]
  scatterDimsToOperandDims := [0]
  indexVectorDim := 1
  wf := scatter_S100000_S1600000x1_S1600000_n_0_0_1_wf
def gather_S100000x128_S1600000x1_S1600000x128_1_0_n_n_0_1_1128 : GatherDims S100000x128 S1600000x1 S1600000x128 where
  offsetDims := [1]
  collapsedSliceDims := [0]
  operandBatchingDims := []
  startIndicesBatchingDims := []
  startIndexMap := [0]
  indexVectorDim := 1
  sliceSizes := ![1, 128]
  wf := gather_S100000x128_S1600000x1_S1600000x128_1_0_n_n_0_1_1128_wf
def scatter_S100000x128_S1600000x1_S1600000x128_1_0_0_1 : ScatterDims S100000x128 S1600000x1 S1600000x128 where
  updateWindowDims := [1]
  insertedWindowDims := [0]
  scatterDimsToOperandDims := [0]
  indexVectorDim := 1
  wf := scatter_S100000x128_S1600000x1_S1600000x128_1_0_0_1_wf

class Facts : Prop extends Facts₀ where

variable [Facts]
-- ==== Proof.Entry.lean ====
/-
  The two kernel bodies read at an entry, over the extended reals.

  The projection body holds a 5000-row block `x` of node features, the whole 128 x 128 weight `w` and the block's
  column `s` of row factors. Its one stored value is the matrix product accumulated into zero, times `s` broadcast
  along the rows. A change of float format is the identity here, so entry (p, q) of the stored block is
      (sum over k of x[p, k] * w[k, q]) * s[p, 0].
  The row-scaling body holds a block `x` and the block's column `s`: entry (p, q) of what it stores is
      x[p, q] * s[p, 0].
  Both projection launches run the same body text, so one lemma serves the two.
-/
import proofs.«156500_j15788299780622_1_alg».proof.Proof.Gen.KernelIdeal.Skeleton
import Idealize.ShloMosaic.Lib.ValueIdx
import Idealize.ShloMosaic.Lib.Pipeline.Value
import Idealize.ShloMosaic.PureOps.Ideal.Laws

noncomputable section

open Idealize.ShloMosaic Idealize.ShloMosaic.TcCoe Idealize.SL.Sem
open Idealize.ShloMosaic.ValueIdx

namespace Cert.KernelIdeal.Entry

open Cert.KernelIdeal Cert.KernelIdeal.Gen

/-! ### Where the product reads its two operands -/

/-- The left operand is read on the output's row. -/
theorem lhs_row (i : S5000x128.Idx) (q : dot_S5000x128_S128x128_S5000x128_1_0_0_1_n_n.contr.Idx) :
    (dot_S5000x128_S128x128_S5000x128_1_0_0_1_n_n.lhsIdx i q 0).val = (i 0).val := by
  unfold DotDims.lhsIdx
  rw [dif_neg (show ¬(0 : Fin S5000x128.rank) ∈ dot_S5000x128_S128x128_S5000x128_1_0_0_1_n_n.lhsBatch by decide), dif_pos (show (0 : Fin S5000x128.rank) ∈ dot_S5000x128_S128x128_S5000x128_1_0_0_1_n_n.lhsNonContracting by decide)]
  rfl
/-- The left operand's column is the contracted index. -/
theorem lhs_col (i : S5000x128.Idx) (q : dot_S5000x128_S128x128_S5000x128_1_0_0_1_n_n.contr.Idx) :
    (dot_S5000x128_S128x128_S5000x128_1_0_0_1_n_n.lhsIdx i q 1).val = (q ⟨0, by decide⟩).val :=
  dot_S5000x128_S128x128_S5000x128_1_0_0_1_n_n.lhsIdx_val_of_single rfl i q
/-- The right operand's row is the contracted index. -/
theorem rhs_row (i : S5000x128.Idx) (q : dot_S5000x128_S128x128_S5000x128_1_0_0_1_n_n.contr.Idx) :
    (dot_S5000x128_S128x128_S5000x128_1_0_0_1_n_n.rhsIdx i q 0).val = (q ⟨0, by decide⟩).val :=
  dot_S5000x128_S128x128_S5000x128_1_0_0_1_n_n.rhsIdx_val_of_single rfl i q
/-- The right operand is read on the output's column. -/
theorem rhs_col (i : S5000x128.Idx) (q : dot_S5000x128_S128x128_S5000x128_1_0_0_1_n_n.contr.Idx) :
    (dot_S5000x128_S128x128_S5000x128_1_0_0_1_n_n.rhsIdx i q 1).val = (i 1).val := by
  unfold DotDims.rhsIdx
  rw [dif_neg (show ¬(1 : Fin S128x128.rank) ∈ dot_S5000x128_S128x128_S5000x128_1_0_0_1_n_n.rhsBatch by decide), dif_pos (show (1 : Fin S128x128.rank) ∈ dot_S5000x128_S128x128_S5000x128_1_0_0_1_n_n.rhsNonContracting by decide)]
  rfl

/-! ### The column of row factors, broadcast along the rows -/

/-- A 5000 x 1 column broadcast to 5000 x 128 holds, at (p, q), the column's entry of row p. -/
theorem rowFactor_apply (s : Vec Ideal S5000x1 .f32) (p : Fin 5000) (q : Fin 128) :
    broadcastTo S5000x128 (shapeCast S5000x1 s shapeCasts_S5000x1_S5000x1) broadcasts_S5000x1_S5000x128 (ix2 p q) = s (ix2 p (0 : Fin 1)) := by
  rw [shapeCast_self]
  exact broadcastTo_apply s broadcasts_S5000x1_S5000x128 (ix2 p q) (ix2 p (0 : Fin 1)) (fun a => match a with
    | ⟨0, _⟩ => by show p.val = if (5000 : Nat) = 1 then 0 else p.val; rw [if_neg (by decide)]
    | ⟨1, _⟩ => by show 0 = if (1 : Nat) = 1 then 0 else q.val; rw [if_pos rfl])

/-! ### The projection body -/

/-- Entry (p, q) of what the projection body stores: row p of the block against column q of the weight, times the row's
    factor. -/
theorem project_apply (x : Vec Ideal S5000x128 .f32) (w : Vec Ideal S128x128 .f32) (s : Vec Ideal S5000x1 .f32) (p : Fin 5000) (q : Fin 128) :
    k0_pay1 (F := Ideal) x w s (ix2 p q) = (∑ k : Fin 128, x (ix2 p k) * w (ix2 k q)) * s (ix2 p (0 : Fin 1)) := by
  unfold k0_pay1
  rw [mulf_apply]
  simp only [matmul]
  rw [Ideal.matmul_constant_zero_apply, rowFactor_apply,
    ← Equiv.sum_comp (ValueIdx.contrEquiv1 dot_S5000x128_S128x128_S5000x128_1_0_0_1_n_n 128 rfl rfl).symm]
  refine congrArg (· * s (ix2 p (0 : Fin 1))) (Finset.sum_congr rfl fun k _ => ?_)
  have hk := ValueIdx.contrEquiv1_symm_val dot_S5000x128_S128x128_S5000x128_1_0_0_1_n_n 128 rfl rfl k
  have el : dot_S5000x128_S128x128_S5000x128_1_0_0_1_n_n.lhsIdx (ix2 p q) ((ValueIdx.contrEquiv1 dot_S5000x128_S128x128_S5000x128_1_0_0_1_n_n 128 rfl rfl).symm k) = ix2 p k := funext fun a => Fin.ext (by
    match a with
    | ⟨0, _⟩ => exact lhs_row _ _
    | ⟨1, _⟩ => exact (lhs_col _ _).trans hk)
  have er : dot_S5000x128_S128x128_S5000x128_1_0_0_1_n_n.rhsIdx (ix2 p q) ((ValueIdx.contrEquiv1 dot_S5000x128_S128x128_S5000x128_1_0_0_1_n_n 128 rfl rfl).symm k) = ix2 k q := funext fun a => Fin.ext (by
    match a with
    | ⟨0, _⟩ => exact (rhs_row _ _).trans hk
    | ⟨1, _⟩ => exact rhs_col _ _)
  rw [truncf_apply, truncf_apply, el, er]

/-- The second projection launch runs the same body. -/
theorem project_apply' (x : Vec Ideal S5000x128 .f32) (w : Vec Ideal S128x128 .f32) (s : Vec Ideal S5000x1 .f32) (p : Fin 5000) (q : Fin 128) :
    k1_pay1 (F := Ideal) x w s (ix2 p q) = (∑ k : Fin 128, x (ix2 p k) * w (ix2 k q)) * s (ix2 p (0 : Fin 1)) :=
  project_apply x w s p q

/-! ### The row-scaling body -/

/-- Entry (p, q) of what the row-scaling body stores: the block's entry times the row's factor. -/
theorem scale_apply (x : Vec Ideal S5000x128 .f32) (s : Vec Ideal S5000x1 .f32) (p : Fin 5000) (q : Fin 128) :
    k2_pay1 (F := Ideal) x s (ix2 p q) = x (ix2 p q) * s (ix2 p (0 : Fin 1)) := by
  unfold k2_pay1
  rw [mulf_apply, shapeCast_self, rowFactor_apply]

end Cert.KernelIdeal.Entry

end
-- ==== Proof.Spec.lean ====
/-
  The whole-array functions the three launches compute, over the extended reals, entry by entry.

  `projAt x w s p q` is row p of the 50000 x 128 feature table `x` against column q of the 128 x 128 weight `w`,
  times the row's factor `s[p, 0]`; `projScale x w s` is the 50000 x 128 array of these.
  `scaleRows x s` multiplies each row p of a 100000 x 128 array by `s[p, 0]`.
-/
import proofs.«156500_j15788299780622_1_alg».proof.KernelIdeal
import Idealize.ShloMosaic.Lib.ValueIdx

noncomputable section

open Idealize.ShloMosaic Idealize.ShloMosaic.TcCoe Idealize.SL.Sem
open Idealize.ShloMosaic.ValueIdx

namespace Cert.KernelIdeal.Spec

open Cert.KernelIdeal

/-- Row p of the features against column q of the weight, times the factor of row p. -/
def projAt (x : Vec Ideal S50000x128 .f32) (w : Vec Ideal S128x128 .f32) (s : Vec Ideal S50000x1 .f32) (p : Fin 50000) (q : Fin 128) : EReal :=
  (∑ k : Fin 128, x (ix2 p k) * w (ix2 k q)) * s (ix2 p (0 : Fin 1))

/-- One side's projected and row-scaled features. -/
def projScale (x : Vec Ideal S50000x128 .f32) (w : Vec Ideal S128x128 .f32) (s : Vec Ideal S50000x1 .f32) : Vec Ideal S50000x128 .f32 :=
  fun i => projAt x w s ⟨(i 0).val, (i 0).isLt⟩ ⟨(i 1).val, (i 1).isLt⟩

theorem projScale_apply (x : Vec Ideal S50000x128 .f32) (w : Vec Ideal S128x128 .f32) (s : Vec Ideal S50000x1 .f32) (p : Fin 50000) (q : Fin 128) :
    projScale x w s (ix2 p q) = projAt x w s p q := rfl

/-- Entry (p, q) of the array times the factor of row p. -/
def scaleAt (x : Vec Ideal S100000x128 .f32) (s : Vec Ideal S100000x1 .f32) (p : Fin 100000) (q : Fin 128) : EReal :=
  x (ix2 p q) * s (ix2 p (0 : Fin 1))

/-- Every row of the array times its factor. -/
def scaleRows (x : Vec Ideal S100000x128 .f32) (s : Vec Ideal S100000x1 .f32) : Vec Ideal S100000x128 .f32 :=
  fun i => scaleAt x s ⟨(i 0).val, (i 0).isLt⟩ ⟨(i 1).val, (i 1).isLt⟩

theorem scaleRows_apply (x : Vec Ideal S100000x128 .f32) (s : Vec Ideal S100000x1 .f32) (p : Fin 100000) (q : Fin 128) :
    scaleRows x s (ix2 p q) = scaleAt x s p q := rfl

end Cert.KernelIdeal.Spec

end
-- ==== Proof.Left.lean ====
/-
  The first projection launch: what its output array holds when it ends.

  The launch walks ten grid points; point t stages rows 5000 t .. 5000 t + 4999 of the feature table and of the column of
  row factors, the whole weight, and writes the body's result back to the same rows of the output. So the write-back of
  point t is block t of one whole-array function, `Spec.projScale` of the three arrays the launch reads, and the ten
  blocks cover every row: the output ends holding that function.
  The arrays are taken as the launch finds them, `V`, whatever ran before.
-/
import proofs.«156500_j15788299780622_1_alg».proof.Proof.Gen.KernelIdeal.Frame
import proofs.«156500_j15788299780622_1_alg».proof.Proof.Entry
import proofs.«156500_j15788299780622_1_alg».proof.Proof.Spec
import Idealize.ShloMosaic.Lib.Pipeline.Value

set_option maxRecDepth 16384

noncomputable section

open Idealize.ShloMosaic Idealize.ShloMosaic.TcCoe Idealize.SL.Sem
open Idealize.ShloMosaic.ValueIdx
open Idealize.ShloMosaic.Pipeline (Dat)

namespace Cert.KernelIdeal.Left

open Cert.KernelIdeal Cert.KernelIdeal.Gen Cert.KernelIdeal.Spec

variable (V : (c : Dev nD) → (b : Ref sig .tc) → Buf (Elt Ideal) ((c : Thread nD τ).loc b))

theorem hz : (![0, 0] : Fin 2 → Nat) = fun _ => 0 := funext fun a => by fin_cases a <;> rfl

/-- Which block each window stages at point t: block row t of the features, of the factors and of the output; the one
    block of the weight. -/
theorem idx_facts : ∀ t : Fin cfg0.N, win0_0.index t (0 : Fin 2) = t.val ∧ win0_0.index t (1 : Fin 2) = 0
    ∧ win0_1.index t (0 : Fin 2) = 0 ∧ win0_1.index t (1 : Fin 2) = 0
    ∧ win0_2.index t (0 : Fin 2) = t.val ∧ win0_2.index t (1 : Fin 2) = 0
    ∧ win0_3.index t (0 : Fin 2) = t.val ∧ win0_3.index t (1 : Fin 2) = 0 :=
  (by decide +kernel : ∀ t : Fin grid0.N, _)

/-- Row p of point t's blocks is row 5000 t + p of the arrays. -/
def row (t : Fin cfg0.N) (p : Fin 5000) : Fin 50000 :=
  ⟨5000 * t.val + p.val, by have ht : t.val < 10 := Nat.lt_of_lt_of_eq t.isLt (show cfg0.N = 10 from N_0)
                            have := p.isLt; omega⟩

/-- The staged block of features, at (p, k), is the feature table at row 5000 t + p. -/
theorem feat_read (c : Dev nD) (t : Fin cfg0.N) (p : Fin 5000) (k : Fin 128) :
    (iblk0 V c 0 t : Vec Ideal S5000x128 .f32) (ix2 p k) = (V c main_arg0 : Vec Ideal S50000x128 .f32) (ix2 (row t p) k) := by
  obtain ⟨e0, e1, -⟩ := idx_facts t
  unfold iblk0
  rw [View.read_apply]
  show V c main_arg0 _ = V c main_arg0 _
  refine congrArg (V c main_arg0) ?_
  funext a
  apply Fin.ext
  match a with
  | ⟨0, _⟩ => show win0_0.index t (0 : Fin 2) * 5000 + 1 * p.val = 5000 * t.val + p.val; rw [e0]; omega
  | ⟨1, _⟩ => show win0_0.index t (1 : Fin 2) * 128 + 1 * k.val = k.val; rw [e1]; omega

/-- The staged weight is the whole weight. -/
theorem weight_read (c : Dev nD) (t : Fin cfg0.N) (k q : Fin 128) :
    (iblk0 V c 1 t : Vec Ideal S128x128 .f32) (ix2 k q) = (V c main_arg2 : Vec Ideal S128x128 .f32) (ix2 k q) := by
  obtain ⟨-, -, e0, e1, -⟩ := idx_facts t
  unfold iblk0
  rw [View.read_apply]
  show V c main_arg2 _ = V c main_arg2 _
  refine congrArg (V c main_arg2) ?_
  funext a
  apply Fin.ext
  match a with
  | ⟨0, _⟩ => show win0_1.index t (0 : Fin 2) * 128 + 1 * k.val = k.val; rw [e0]; omega
  | ⟨1, _⟩ => show win0_1.index t (1 : Fin 2) * 128 + 1 * q.val = q.val; rw [e1]; omega

/-- The staged column of factors, at row p, is the column at row 5000 t + p. -/
theorem factor_read (c : Dev nD) (t : Fin cfg0.N) (p : Fin 5000) :
    (iblk0 V c 2 t : Vec Ideal S5000x1 .f32) (ix2 p (0 : Fin 1)) = (V c main_v15 : Vec Ideal S50000x1 .f32) (ix2 (row t p) (0 : Fin 1)) := by
  obtain ⟨-, -, -, -, e0, e1, -⟩ := idx_facts t
  unfold iblk0
  rw [View.read_apply]
  show V c main_v15 _ = V c main_v15 _
  refine congrArg (V c main_v15) ?_
  funext a
  apply Fin.ext
  match a with
  | ⟨0, _⟩ => show win0_2.index t (0 : Fin 2) * 5000 + 1 * p.val = 5000 * t.val + p.val; rw [e0]; omega
  | ⟨1, _⟩ => show win0_2.index t (1 : Fin 2) * 1 + 1 * 0 = 0; rw [e1]

/-- Entry (p, q) of the output's block at point t sits at (5000 t + p, q) of the output. -/
theorem out_emb (t : Fin cfg0.N) (p : Fin 5000) (q : Fin 128) :
    ((cfg0.win 3).blk t).view.emb (ix2 p q) = (ix2 (row t p) q : S50000x128.Idx) := by
  obtain ⟨-, -, -, -, -, -, e0, e1⟩ := idx_facts t
  funext a
  apply Fin.ext
  match a with
  | ⟨0, _⟩ => show win0_3.index t (0 : Fin 2) * 5000 + 1 * p.val = 5000 * t.val + p.val; rw [e0]; omega
  | ⟨1, _⟩ => show win0_3.index t (1 : Fin 2) * 128 + 1 * q.val = q.val; rw [e1]; omega

/-- WHAT POINT t WRITES BACK is block t of the projected, row-scaled features. -/
theorem flushed_eq (c : Dev nD) (t : Fin cfg0.N) :
    (dat0 V c).flushed 3 t = ((cfg0.win 3).blk t).view.read (Elt Ideal) (projScale (V c main_arg0) (V c main_arg2) (V c main_v15)) := by
  show (cfg0.win 3).cut (grid0.coords t) ((dat0 V c).after 3 t) = _
  rw [after0_3]
  unfold out0_3
  rw [View.canon_unit_zero hz]
  simp only [View.ld_unit_zero (S := S5000x128) hz, View.ld_unit_zero (S := S128x128) hz, View.ld_unit_zero (S := S5000x1) hz]
  funext j
  show k0_pay1 (iblk0 V c 0 t) (iblk0 V c 1 t) (iblk0 V c 2 t) j = projScale (V c main_arg0) (V c main_arg2) (V c main_v15) (((cfg0.win 3).blk t).view.emb j)
  obtain ⟨p, q, rfl⟩ : ∃ (p : Fin 5000) (q : Fin 128), j = ix2 p q := ⟨j 0, j 1, eq_ix2 j⟩
  refine (Cert.KernelIdeal.Entry.project_apply (iblk0 V c 0 t) (iblk0 V c 1 t) (iblk0 V c 2 t) p q).trans ?_
  rw [out_emb, projScale_apply, factor_read]
  unfold projAt
  refine congrArg (· * (V c main_v15 : Vec Ideal S50000x1 .f32) (ix2 (row t p) (0 : Fin 1))) (Finset.sum_congr rfl fun k _ => ?_)
  rw [feat_read, weight_read]

/-- An index of the output is in point t's block iff its row is among rows 5000 t .. 5000 t + 4999. -/
theorem mem_blk (t : Fin cfg0.N) (i : S50000x128.Idx) :
    i ∈ ((cfg0.win 3).blk t).view.set ↔ ∀ a : Fin 2, win0_3.index t a * S5000x128.size a ≤ (i a).val ∧ (i a).val < win0_3.index t a * S5000x128.size a + S5000x128.size a := by
  show i ∈ ((View.whole main_v17).slice (win0_3.rect t)).set ↔ _
  rw [View.set_slice_whole, Rect.mem_set_unit]
  exact Iff.rfl

/-- Every index of the output lies in the block of the point its row's quotient by 5000 names. -/
theorem cover (i : S50000x128.Idx) : ∃ t : Fin cfg0.N, (cfg0.win 3).flush t = true ∧ i ∈ ((cfg0.win 3).blk t).view.set := by
  have hi0 : (i 0).val < 50000 := (i 0).isLt
  have hi1 : (i 1).val < 128 := (i 1).isLt
  let t : Fin cfg0.N := ⟨(i 0).val / 5000, by rw [show cfg0.N = 10 from N_0]; omega⟩
  obtain ⟨-, -, -, -, -, -, e0, e1⟩ := idx_facts t
  have ht : t.val = (i 0).val / 5000 := rfl
  refine ⟨t, flush0_3 t, ?_⟩
  rw [mem_blk]
  intro a
  match a with
  | ⟨0, _⟩ => show win0_3.index t (0 : Fin 2) * 5000 ≤ (i 0).val ∧ (i 0).val < win0_3.index t (0 : Fin 2) * 5000 + 5000; rw [e0, ht]; omega
  | ⟨1, _⟩ => show win0_3.index t (1 : Fin 2) * 128 ≤ (i 1).val ∧ (i 1).val < win0_3.index t (1 : Fin 2) * 128 + 128; rw [e1]; omega

/-- THE OUTPUT after the launch: the projected, row-scaled features of the arrays the launch found. -/
theorem final (c : Dev nD) : (dat0 V c).arrAt 3 cfg0.N = projScale (V c main_arg0) (V c main_arg2) (V c main_v15) :=
  (dat0 V c).arrAt_eq_of_cover 3 (projScale (V c main_arg0) (V c main_arg2) (V c main_v15)) (fun t _ => flushed_eq V c t) cover

end Cert.KernelIdeal.Left

end
-- ==== Proof.Rows.lean ====
/-
  The row-scaling launch: what its output array holds when it ends.

  The launch walks twenty grid points; point t stages rows 5000 t .. 5000 t + 4999 of a 100000 x 128 array and of a
  100000 x 1 column of row factors, and writes each staged entry times its row's factor back to the same rows of the
  output. So the write-back of point t is block t of `Spec.scaleRows` of the two arrays the launch reads, and the twenty
  blocks cover every row: the output ends holding that function.
  The arrays are taken as the launch finds them, `V`, whatever ran before.
-/
import proofs.«156500_j15788299780622_1_alg».proof.Proof.Gen.KernelIdeal.Frame
import proofs.«156500_j15788299780622_1_alg».proof.Proof.Entry
import proofs.«156500_j15788299780622_1_alg».proof.Proof.Spec
import Idealize.ShloMosaic.Lib.Pipeline.Value

set_option maxRecDepth 16384

noncomputable section

open Idealize.ShloMosaic Idealize.ShloMosaic.TcCoe Idealize.SL.Sem
open Idealize.ShloMosaic.ValueIdx
open Idealize.ShloMosaic.Pipeline (Dat)

namespace Cert.KernelIdeal.Rows

open Cert.KernelIdeal Cert.KernelIdeal.Gen Cert.KernelIdeal.Spec

variable (V : (c : Dev nD) → (b : Ref sig .tc) → Buf (Elt Ideal) ((c : Thread nD τ).loc b))

theorem hz : (![0, 0] : Fin 2 → Nat) = fun _ => 0 := funext fun a => by fin_cases a <;> rfl

/-- Which block each window stages at point t: block row t of the array, of the factors and of the output. -/
theorem idx_facts : ∀ t : Fin cfg2.N, win2_0.index t (0 : Fin 2) = t.val ∧ win2_0.index t (1 : Fin 2) = 0
    ∧ win2_1.index t (0 : Fin 2) = t.val ∧ win2_1.index t (1 : Fin 2) = 0
    ∧ win2_2.index t (0 : Fin 2) = t.val ∧ win2_2.index t (1 : Fin 2) = 0 :=
  (by decide +kernel : ∀ t : Fin grid2.N, _)

/-- Row p of point t's blocks is row 5000 t + p of the arrays. -/
def row (t : Fin cfg2.N) (p : Fin 5000) : Fin 100000 :=
  ⟨5000 * t.val + p.val, by have ht : t.val < 20 := Nat.lt_of_lt_of_eq t.isLt (show cfg2.N = 20 from N_2)
                            have := p.isLt; omega⟩

/-- The staged block of the array, at (p, q), is the array at row 5000 t + p. -/
theorem arr_read (c : Dev nD) (t : Fin cfg2.N) (p : Fin 5000) (q : Fin 128) :
    (iblk2 V c 0 t : Vec Ideal S5000x128 .f32) (ix2 p q) = (V c main_v29 : Vec Ideal S100000x128 .f32) (ix2 (row t p) q) := by
  obtain ⟨e0, e1, -⟩ := idx_facts t
  unfold iblk2
  rw [View.read_apply]
  show V c main_v29 _ = V c main_v29 _
  refine congrArg (V c main_v29) ?_
  funext a
  apply Fin.ext
  match a with
  | ⟨0, _⟩ => show win2_0.index t (0 : Fin 2) * 5000 + 1 * p.val = 5000 * t.val + p.val; rw [e0]; omega
  | ⟨1, _⟩ => show win2_0.index t (1 : Fin 2) * 128 + 1 * q.val = q.val; rw [e1]; omega

/-- The staged column of factors, at row p, is the column at row 5000 t + p. -/
theorem factor_read (c : Dev nD) (t : Fin cfg2.N) (p : Fin 5000) :
    (iblk2 V c 1 t : Vec Ideal S5000x1 .f32) (ix2 p (0 : Fin 1)) = (V c main_v14 : Vec Ideal S100000x1 .f32) (ix2 (row t p) (0 : Fin 1)) := by
  obtain ⟨-, -, e0, e1, -⟩ := idx_facts t
  unfold iblk2
  rw [View.read_apply]
  show V c main_v14 _ = V c main_v14 _
  refine congrArg (V c main_v14) ?_
  funext a
  apply Fin.ext
  match a with
  | ⟨0, _⟩ => show win2_1.index t (0 : Fin 2) * 5000 + 1 * p.val = 5000 * t.val + p.val; rw [e0]; omega
  | ⟨1, _⟩ => show win2_1.index t (1 : Fin 2) * 1 + 1 * 0 = 0; rw [e1]

/-- Entry (p, q) of the output's block at point t sits at (5000 t + p, q) of the output. -/
theorem out_emb (t : Fin cfg2.N) (p : Fin 5000) (q : Fin 128) :
    ((cfg2.win 2).blk t).view.emb (ix2 p q) = (ix2 (row t p) q : S100000x128.Idx) := by
  obtain ⟨-, -, -, -, e0, e1⟩ := idx_facts t
  funext a
  apply Fin.ext
  match a with
  | ⟨0, _⟩ => show win2_2.index t (0 : Fin 2) * 5000 + 1 * p.val = 5000 * t.val + p.val; rw [e0]; omega
  | ⟨1, _⟩ => show win2_2.index t (1 : Fin 2) * 128 + 1 * q.val = q.val; rw [e1]; omega

/-- WHAT POINT t WRITES BACK is block t of the array with every row times its factor. -/
theorem flushed_eq (c : Dev nD) (t : Fin cfg2.N) :
    (dat2 V c).flushed 2 t = ((cfg2.win 2).blk t).view.read (Elt Ideal) (scaleRows (V c main_v29) (V c main_v14)) := by
  show (cfg2.win 2).cut (grid2.coords t) ((dat2 V c).after 2 t) = _
  rw [after2_2]
  unfold out2_2
  rw [View.canon_unit_zero hz]
  simp only [View.ld_unit_zero (S := S5000x128) hz, View.ld_unit_zero (S := S5000x1) hz]
  funext j
  show k2_pay1 (iblk2 V c 0 t) (iblk2 V c 1 t) j = scaleRows (V c main_v29) (V c main_v14) (((cfg2.win 2).blk t).view.emb j)
  obtain ⟨p, q, rfl⟩ : ∃ (p : Fin 5000) (q : Fin 128), j = ix2 p q := ⟨j 0, j 1, eq_ix2 j⟩
  refine (Cert.KernelIdeal.Entry.scale_apply (iblk2 V c 0 t) (iblk2 V c 1 t) p q).trans ?_
  rw [out_emb, scaleRows_apply, arr_read, factor_read]
  rfl

/-- An index of the output is in point t's block iff its row is among rows 5000 t .. 5000 t + 4999. -/
theorem mem_blk (t : Fin cfg2.N) (i : S100000x128.Idx) :
    i ∈ ((cfg2.win 2).blk t).view.set ↔ ∀ a : Fin 2, win2_2.index t a * S5000x128.size a ≤ (i a).val ∧ (i a).val < win2_2.index t a * S5000x128.size a + S5000x128.size a := by
  show i ∈ ((View.whole main_v30).slice (win2_2.rect t)).set ↔ _
  rw [View.set_slice_whole, Rect.mem_set_unit]
  exact Iff.rfl

/-- Every index of the output lies in the block of the point its row's quotient by 5000 names. -/
theorem cover (i : S100000x128.Idx) : ∃ t : Fin cfg2.N, (cfg2.win 2).flush t = true ∧ i ∈ ((cfg2.win 2).blk t).view.set := by
  have hi0 : (i 0).val < 100000 := (i 0).isLt
  have hi1 : (i 1).val < 128 := (i 1).isLt
  let t : Fin cfg2.N := ⟨(i 0).val / 5000, by rw [show cfg2.N = 20 from N_2]; omega⟩
  obtain ⟨-, -, -, -, e0, e1⟩ := idx_facts t
  have ht : t.val = (i 0).val / 5000 := rfl
  refine ⟨t, flush2_2 t, ?_⟩
  rw [mem_blk]
  intro a
  match a with
  | ⟨0, _⟩ => show win2_2.index t (0 : Fin 2) * 5000 ≤ (i 0).val ∧ (i 0).val < win2_2.index t (0 : Fin 2) * 5000 + 5000; rw [e0, ht]; omega
  | ⟨1, _⟩ => show win2_2.index t (1 : Fin 2) * 128 ≤ (i 1).val ∧ (i 1).val < win2_2.index t (1 : Fin 2) * 128 + 128; rw [e1]; omega

/-- THE OUTPUT after the launch: the array it found, every row times the row's factor. -/
theorem final (c : Dev nD) : (dat2 V c).arrAt 2 cfg2.N = scaleRows (V c main_v29) (V c main_v14) :=
  (dat2 V c).arrAt_eq_of_cover 2 (scaleRows (V c main_v29) (V c main_v14)) (fun t _ => flushed_eq V c t) cover

end Cert.KernelIdeal.Rows

end
-- ==== Proof.Graph.lean ====
/-
  The host-side pieces both programs share, named once so that nothing later opens them.

  For an index list `idx` of 1600000 edge ends over 100000 nodes:
    `tally idx`   adds a one at every listed node: how many edge ends name each node;
    `factor idx`  is max(tally, 1) raised to the power -1/2, the node's degree normalisation;
    `column idx`  is the same vector laid out as a 100000 x 1 column.
  `wrap src` adds 100000 to a negative index and keeps the others.
  `spread node src dst` reads row `wrap src[e]` of the node features for every edge e and adds it into row `dst[e]` of
  an array of zeros: each node receives the sum of its neighbours' rows.
-/
import proofs.«156500_j15788299780622_1_alg».proof.Proof.Gen.KernelIdeal

noncomputable section

open Idealize.ShloMosaic Idealize.ShloMosaic.TcCoe Idealize.SL.Sem

namespace Cert.KernelIdeal.Graph

open Cert.KernelIdeal
open Cert.KernelIdeal.Facts₀ Cert.KernelIdeal.Facts

variable {F : FTy → Type} [FloatOps F]

/-- How many edge ends name each node, as floats: ones added into zeros at the listed nodes. -/
def tally (idx : (⟨S1600000, .i32⟩ : BufTy).Contents (Elt F)) : (⟨S100000, .f32⟩ : BufTy).Contents (Elt F) :=
  Host.scatterAdd scatter_S100000_S1600000x1_S1600000_n_0_0_1
    (broadcastInDim S100000 ![] bcast_S_S100000 (constant S_ .f32 0x00000000#32))
    (broadcastInDim S1600000x1 ![0] bcast_S1600000_S1600000x1_0 idx)
    (broadcastInDim S1600000 ![] bcast_S_S1600000 (constant S_ .f32 0x3F800000#32))

/-- The degree normalisation of each node: max(tally, 1) to the power -1/2. -/
def factor (idx : (⟨S1600000, .i32⟩ : BufTy).Contents (Elt F)) : (⟨S100000, .f32⟩ : BufTy).Contents (Elt F) :=
  Host.powf (maximumf (broadcastInDim S100000 ![] bcast_S_S100000 (id (constant S_ .f32 0x3F800000#32))) (tally idx))
    (broadcastInDim S100000 ![] bcast_S_S100000 (constant S_ .f32 0xBF000000#32))

/-- The normalisation as a 100000 x 1 column. -/
def column (idx : (⟨S1600000, .i32⟩ : BufTy).Contents (Elt F)) : (⟨S100000x1, .f32⟩ : BufTy).Contents (Elt F) :=
  shapeCast S100000x1 (factor idx) shapeCasts_S100000_S100000x1

/-- A negative index counts from the end: 100000 is added to it. -/
def wrap (src : (⟨S1600000, .i32⟩ : BufTy).Contents (Elt F)) : (⟨S1600000, .i32⟩ : BufTy).Contents (Elt F) :=
  select (cmpi .slt src (broadcastInDim S1600000 ![] bcast_S_S1600000 (constantI S_ 32 0#32)))
    (addi src (broadcastInDim S1600000 ![] bcast_S_S1600000 (constantI S_ 32 100000#32))) src

/-- Every node receives the sum of the rows its incoming edges read. -/
def spread (node : (⟨S100000x128, .f32⟩ : BufTy).Contents (Elt F)) (src dst : (⟨S1600000, .i32⟩ : BufTy).Contents (Elt F)) :
    (⟨S100000x128, .f32⟩ : BufTy).Contents (Elt F) :=
  Host.scatterAdd scatter_S100000x128_S1600000x1_S1600000x128_1_0_0_1
    (broadcastInDim S100000x128 ![] bcast_S_S100000x128 (constant S_ .f32 0x00000000#32))
    (broadcastInDim S1600000x1 ![0] bcast_S1600000_S1600000x1_0 dst)
    (Host.gather gather_S100000x128_S1600000x1_S1600000x128_1_0_n_n_0_1_1128 node
      (broadcastInDim S1600000x1 ![0] bcast_S1600000_S1600000x1_0 (wrap src)))

/-- The two sides' features stacked, the first 50000 rows on top. -/
def stack (a b : (⟨S50000x128, .f32⟩ : BufTy).Contents (Elt F)) : (⟨S100000x128, .f32⟩ : BufTy).Contents (Elt F) :=
  concatenate S100000x128 0 [⟨S50000x128, a⟩, ⟨S50000x128, b⟩] concatenates_S50000x128_S50000x128_S100000x128_d0

/-- The top half and the bottom half of a 100000 x 1 column. -/
def top (s : (⟨S100000x1, .f32⟩ : BufTy).Contents (Elt F)) : (⟨S50000x1, .f32⟩ : BufTy).Contents (Elt F) :=
  extractStridedSlice S50000x1 ![0, 0] s slices_S100000x1_S50000x1_0_0
def bottom (s : (⟨S100000x1, .f32⟩ : BufTy).Contents (Elt F)) : (⟨S50000x1, .f32⟩ : BufTy).Contents (Elt F) :=
  extractStridedSlice S50000x1 ![50000, 0] s slices_S100000x1_S50000x1_50000_0

end Cert.KernelIdeal.Graph

end
-- ==== Proof.HostSide.lean ====
/-
  The host's stretches of the program, read as values.

  Before the first launch: the out-degree column (computed from the source list) is cut into its top and bottom halves
  for the two projection launches, the in-degree column (from the destination list) is kept for the last launch, and the
  six argument arrays are as launched.
  Between the second and the third launch: the two launches' outputs are stacked and every node collects its neighbours'
  rows; nothing else the last launch reads is written.
  Stated for any float semantics: the operations stay closed symbols, so each fact is a reading of the program text.
-/
import proofs.«156500_j15788299780622_1_alg».proof.Proof.Gen.KernelIdeal.Frame
import proofs.«156500_j15788299780622_1_alg».proof.Proof.Graph
import Idealize.ShloMosaic.Lib.StableHlo.Run

set_option maxRecDepth 16384

noncomputable section

open Idealize.ShloMosaic Idealize.ShloMosaic.TcCoe Idealize.SL.Sem Idealize.ShloMosaic.StableHlo

namespace Cert.KernelIdeal.HostSide

open Cert.KernelIdeal Cert.KernelIdeal.Gen Cert.KernelIdeal.Graph

variable {F : FTy → Type} [FloatOps F]
variable (m : (ℓ : Loc nD τ sig) → Buf (Elt F) ℓ) (ρ : Dev nD → PrngReg)

/-! ### What the first launch finds -/

set_option maxHeartbeats 1000000 in
/-- The first projection launch is handed the top half of the out-degree column. -/
theorem entry_top (c : Dev nD) : W5 m ρ c (Proc.devRef .tc main_v15) = top (column (m ((c : Thread nD τ).loc main_arg4))) := by
  unfold top column factor tally
  dsimp only [W5, W4, W3, W2, W1, W0]
  after_results_simp
  rfl

set_option maxHeartbeats 1000000 in
/-- The second projection launch is handed the bottom half of the out-degree column. -/
theorem entry_bottom (c : Dev nD) : W5 m ρ c (Proc.devRef .tc main_v16) = bottom (column (m ((c : Thread nD τ).loc main_arg4))) := by
  unfold bottom column factor tally
  dsimp only [W5, W4, W3, W2, W1, W0]
  after_results_simp
  rfl

set_option maxHeartbeats 1000000 in
/-- The in-degree column, kept for the last launch. -/
theorem entry_in (c : Dev nD) : W5 m ρ c (Proc.devRef .tc main_v14) = column (m ((c : Thread nD τ).loc main_arg5)) := by
  unfold column factor tally
  dsimp only [W5, W4, W3, W2, W1, W0]
  after_results_simp
  rfl

set_option maxHeartbeats 1000000 in
/-- No host operation before the first launch writes an argument. -/
theorem entry_arg0 (c : Dev nD) : W5 m ρ c (Proc.devRef .tc main_arg0) = m ((c : Thread nD τ).loc main_arg0) := by
  dsimp only [W5, W4, W3, W2, W1, W0]
  after_results_simp
set_option maxHeartbeats 1000000 in
theorem entry_arg1 (c : Dev nD) : W5 m ρ c (Proc.devRef .tc main_arg1) = m ((c : Thread nD τ).loc main_arg1) := by
  dsimp only [W5, W4, W3, W2, W1, W0]
  after_results_simp
set_option maxHeartbeats 1000000 in
theorem entry_arg2 (c : Dev nD) : W5 m ρ c (Proc.devRef .tc main_arg2) = m ((c : Thread nD τ).loc main_arg2) := by
  dsimp only [W5, W4, W3, W2, W1, W0]
  after_results_simp
set_option maxHeartbeats 1000000 in
theorem entry_arg3 (c : Dev nD) : W5 m ρ c (Proc.devRef .tc main_arg3) = m ((c : Thread nD τ).loc main_arg3) := by
  dsimp only [W5, W4, W3, W2, W1, W0]
  after_results_simp
set_option maxHeartbeats 1000000 in
theorem entry_arg4 (c : Dev nD) : W5 m ρ c (Proc.devRef .tc main_arg4) = m ((c : Thread nD τ).loc main_arg4) := by
  dsimp only [W5, W4, W3, W2, W1, W0]
  after_results_simp
set_option maxHeartbeats 1000000 in
theorem entry_arg5 (c : Dev nD) : W5 m ρ c (Proc.devRef .tc main_arg5) = m ((c : Thread nD τ).loc main_arg5) := by
  dsimp only [W5, W4, W3, W2, W1, W0]
  after_results_simp

/-! ### Between the second and the third launch -/

set_option maxHeartbeats 1000000 in
/-- What the last launch scales: the stacked outputs of the two projection launches, collected along the edges. -/
theorem collected (c : Dev nD) : W8 m ρ c (Proc.devRef .tc main_v29)
    = spread (stack (W7 m ρ c (Proc.devRef .tc main_v17)) (W7 m ρ c (Proc.devRef .tc main_v18)))
        (W7 m ρ c (Proc.devRef .tc main_arg4)) (W7 m ρ c (Proc.devRef .tc main_arg5)) := by
  unfold spread stack wrap
  dsimp only [W8]
  after_results_simp

set_option maxHeartbeats 1000000 in
/-- The in-degree column is not written in between. -/
theorem kept_in (c : Dev nD) : W8 m ρ c (Proc.devRef .tc main_v14) = W7 m ρ c (Proc.devRef .tc main_v14) := by
  dsimp only [W8]
  after_results_simp

end Cert.KernelIdeal.HostSide

end
-- ==== Proof.Whole.lean ====
/-
  The kernel's result as ONE function of the six arguments, over the extended reals:
      scaleRows (spread (stack (projScale u_f u_w (top s_out)) (projScale v_f v_w (bottom s_out))) src dst) s_in,
  s_out the out-degree column (from src), s_in the in-degree column (from dst).
-/
import proofs.«156500_j15788299780622_1_alg».proof.Proof.Spec
import proofs.«156500_j15788299780622_1_alg».proof.Proof.Graph

noncomputable section

open Idealize.ShloMosaic Idealize.ShloMosaic.TcCoe Idealize.SL.Sem

namespace Cert.KernelIdeal.Whole

open Cert.KernelIdeal Cert.KernelIdeal.Spec Cert.KernelIdeal.Graph

/-- Both sides' features projected and scaled by the out-degree normalisation of their rows, stacked. -/
def node (uf vf : Vec Ideal S50000x128 .f32) (uw vw : Vec Ideal S128x128 .f32) (src : (⟨S1600000, .i32⟩ : BufTy).Contents (Elt Ideal)) :
    Vec Ideal S100000x128 .f32 :=
  stack (projScale uf uw (top (column src))) (projScale vf vw (bottom (column src)))

/-- The result: the features collected along the edges, every row scaled by its in-degree normalisation. -/
def value (uf vf : Vec Ideal S50000x128 .f32) (uw vw : Vec Ideal S128x128 .f32) (src dst : (⟨S1600000, .i32⟩ : BufTy).Contents (Elt Ideal)) :
    Vec Ideal S100000x128 .f32 :=
  scaleRows (spread (node uf vf uw vw src) src dst) (column dst)

end Cert.KernelIdeal.Whole

end
-- ==== Proof.Chain.lean ====
/-
  The result buffer read back through the whole program, as one term of the six arguments.

  Before the first launch the host computes both degree normalisations from the two index lists and hands each projection
  launch its half of the out-degree column. Each projection launch leaves the projected, row-scaled features of its side
  and touches nothing the other reads; the host stacks the two outputs and lets every node collect its neighbours' rows;
  the last launch scales each row by the in-degree column. Read boundary by boundary, the result buffer ends at
  `Whole.value` of the arguments.
-/
import proofs.«156500_j15788299780622_1_alg».proof.Proof.Left
import proofs.«156500_j15788299780622_1_alg».proof.Proof.Right
import proofs.«156500_j15788299780622_1_alg».proof.Proof.Rows
import proofs.«156500_j15788299780622_1_alg».proof.Proof.HostSide
import proofs.«156500_j15788299780622_1_alg».proof.Proof.Whole
import proofs.«156500_j15788299780622_1_alg».proof.Proof.Result

set_option maxRecDepth 16384

noncomputable section

open Idealize.ShloMosaic Idealize.ShloMosaic.TcCoe Idealize.SL.Sem

namespace Cert.KernelIdeal.Chain

open Cert.KernelIdeal Cert.KernelIdeal.Gen Cert.KernelIdeal.Spec Cert.KernelIdeal.Graph Cert.KernelIdeal.Whole

variable (m : (ℓ : Loc nD τ sig) → Buf (Elt Ideal) ℓ) (ρ : Dev nD → PrngReg)

/-- After the first launch its output holds the first side's projected, scaled features. -/
theorem left_out (c : Dev nD) : W6 m ρ c (Proc.devRef .tc main_v17)
    = projScale (m ((c : Thread nD τ).loc main_arg0)) (m ((c : Thread nD τ).loc main_arg2)) (top (column (m ((c : Thread nD τ).loc main_arg4)))) := by
  refine ((W6_arr m ρ c 3).trans (Cert.KernelIdeal.Left.final (V5 m ρ) c)).trans ?_
  show projScale (W5 m ρ c (Proc.devRef .tc main_arg0)) (W5 m ρ c (Proc.devRef .tc main_arg2)) (W5 m ρ c (Proc.devRef .tc main_v15)) = _
  rw [HostSide.entry_arg0, HostSide.entry_arg2, HostSide.entry_top]

/-- After the second launch its output holds the second side's projected, scaled features. -/
theorem right_out (c : Dev nD) : W7 m ρ c (Proc.devRef .tc main_v18)
    = projScale (m ((c : Thread nD τ).loc main_arg1)) (m ((c : Thread nD τ).loc main_arg3)) (bottom (column (m ((c : Thread nD τ).loc main_arg4)))) := by
  refine ((W7_arr m ρ c 3).trans (Cert.KernelIdeal.Right.final (V6 m ρ) c)).trans ?_
  show projScale (W6 m ρ c (Proc.devRef .tc main_arg1)) (W6 m ρ c (Proc.devRef .tc main_arg3)) (W6 m ρ c (Proc.devRef .tc main_v16)) = _
  rw [W6_of_ne m ρ c main_arg1 (by decide), W6_of_ne m ρ c main_arg3 (by decide), W6_of_ne m ρ c main_v16 (by decide),
    HostSide.entry_arg1, HostSide.entry_arg3, HostSide.entry_bottom]

/-- THE RESULT BUFFER after the last launch. -/
theorem result_eq (c : Dev nD) : W9 m ρ c (Proc.devRef .tc main_v30)
    = value (m ((c : Thread nD τ).loc main_arg0)) (m ((c : Thread nD τ).loc main_arg1)) (m ((c : Thread nD τ).loc main_arg2))
        (m ((c : Thread nD τ).loc main_arg3)) (m ((c : Thread nD τ).loc main_arg4)) (m ((c : Thread nD τ).loc main_arg5)) := by
  refine ((W9_arr m ρ c 2).trans (Cert.KernelIdeal.Rows.final (V8 m ρ) c)).trans ?_
  show scaleRows (W8 m ρ c (Proc.devRef .tc main_v29)) (W8 m ρ c (Proc.devRef .tc main_v14)) = _
  rw [HostSide.collected, HostSide.kept_in,
    W7_of_ne m ρ c main_v17 (by decide), left_out, right_out,
    W7_of_ne m ρ c main_arg4 (by decide), W6_of_ne m ρ c main_arg4 (by decide), HostSide.entry_arg4,
    W7_of_ne m ρ c main_arg5 (by decide), W6_of_ne m ρ c main_arg5 (by decide), HostSide.entry_arg5,
    W7_of_ne m ρ c main_v14 (by decide), W6_of_ne m ρ c main_v14 (by decide), HostSide.entry_in]
  rfl

/-- The run, read: the result buffer at `value` of the arguments, the arguments unchanged. -/
theorem run : θ_run defs (onTc (τ := τ) (main (F := Ideal))) ⟨m, fun _ => 0, ρ⟩ (fun r => ∀ c : Dev nD,
      r.2.mem ((c.tc : Thread nD τ).loc main_v30)
        = value (m ((c : Thread nD τ).loc main_arg0)) (m ((c : Thread nD τ).loc main_arg1)) (m ((c : Thread nD τ).loc main_arg2))
            (m ((c : Thread nD τ).loc main_arg3)) (m ((c : Thread nD τ).loc main_arg4)) (m ((c : Thread nD τ).loc main_arg5))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) :=
  (θ_run defs _ _).mono (fun r h c => ⟨(h c).1.trans (result_eq m ρ c), (h c).2⟩) (Cert.KernelIdeal.Result.run (F := Ideal) m ρ)

end Cert.KernelIdeal.Chain

end
-- ==== Proof.Same.lean ====
/-
  The reference's stages that are, text for text, the pieces named on the kernel's side.

  The reference computes each degree normalisation, stacks its two products and collects along the edges with the very
  operations, constants and dimension records the kernel's host code uses; only the names of the records' copies differ
  between the two printed programs. Stated for any float semantics, where every operation is a closed symbol: each fact
  is one unfolding of definitions.
-/
import proofs.«156500_j15788299780622_1_alg».proof.Proof.Gen.ReferenceIdeal.Read
import proofs.«156500_j15788299780622_1_alg».proof.Proof.Graph

noncomputable section

open Idealize.ShloMosaic Idealize.ShloMosaic.TcCoe Idealize.SL.Sem

namespace Cert.Same

open Cert.ReferenceIdeal.Read Cert.KernelIdeal.Graph

variable {F : FTy → Type} [FloatOps F]

/-- The reference's out-degree normalisation is `factor` of the source list. -/
theorem factor_out (x4 : (⟨Cert.ReferenceIdeal.S1600000, .i32⟩ : BufTy).Contents (Elt F)) :
    val_main_v9 (F := F) x4 = factor (F := F) x4 := by
  unfold val_main_v9 val_main_v8 val_main_cst_2 val_main_v7 val_main_call0_v1 val_main_call0_v0 val_main_cst_1 val_main_v6 val_main_v5 val_main_v4 val_main_cst_0 val_main_v3 val_main_cst
  unfold factor tally
  rfl

/-- The reference's in-degree normalisation is `factor` of the destination list. -/
theorem factor_in (x5 : (⟨Cert.ReferenceIdeal.S1600000, .i32⟩ : BufTy).Contents (Elt F)) :
    val_main_v28 (F := F) x5 = factor (F := F) x5 := by
  unfold val_main_v28 val_main_v27 val_main_cst_7 val_main_v26 val_main_call1_v1 val_main_call1_v0 val_main_cst_6 val_main_v25 val_main_v24 val_main_v23 val_main_cst_5 val_main_v3 val_main_cst
  unfold factor tally
  rfl

/-- The reference's two products, stacked. -/
theorem stacked (x0 x1 : (⟨Cert.ReferenceIdeal.S50000x128, .f32⟩ : BufTy).Contents (Elt F)) (x2 x3 : (⟨Cert.ReferenceIdeal.S128x128, .f32⟩ : BufTy).Contents (Elt F)) :
    val_main_v2 (F := F) x0 x1 x2 x3 = stack (F := F) (val_main_v0 (F := F) x0 x2) (val_main_v1 (F := F) x1 x3) := by
  unfold val_main_v2 stack
  rfl

/-- The reference collects its node features along the edges as `spread` does. -/
theorem collected (x0 x1 : (⟨Cert.ReferenceIdeal.S50000x128, .f32⟩ : BufTy).Contents (Elt F)) (x2 x3 : (⟨Cert.ReferenceIdeal.S128x128, .f32⟩ : BufTy).Contents (Elt F))
    (x4 x5 : (⟨Cert.ReferenceIdeal.S1600000, .i32⟩ : BufTy).Contents (Elt F)) :
    val_main_v22 (F := F) x0 x1 x2 x3 x4 x5 = spread (F := F) (val_main_v12 (F := F) x0 x1 x2 x3 x4) x4 x5 := by
  unfold val_main_v22 val_main_v21 val_main_v20 val_main_cst_4 val_main_v19 val_main_v18 val_main_v17 val_main_v16 val_main_v15 val_main_c_3 val_main_v14 val_main_v13 val_main_c
  unfold spread wrap
  rfl

end Cert.Same

end
-- ==== Proof.Bridge.lean ====
/-
  The kernel's function of the arguments IS the reference's, entry by entry, over the extended reals.

  Node features. Row p of the stacked features comes from the first side when p < 50000 and from the second side, at row
  p - 50000, otherwise. The kernel scales each side's product by its own half of the out-degree column before stacking;
  the reference stacks the two products and scales row p by the column's entry p. The top half of the column at row p is
  the column at p, the bottom half at row p - 50000 is the column at p: the same factor meets the same sum of products.
  Nothing is distributed, cancelled or moved across a sum, so no entry needs to be finite.

  Result. Both programs collect these features along the edges with one and the same function, and then multiply row p
  by the in-degree factor of p: the kernel through a 100000 x 1 column, the reference through a broadcast.
-/
import proofs.«156500_j15788299780622_1_alg».proof.Proof.Same
import proofs.«156500_j15788299780622_1_alg».proof.Proof.Whole
import Idealize.ShloMosaic.Lib.ValueIdx
import Idealize.ShloMosaic.Lib.Pipeline.Value

noncomputable section

open Idealize.ShloMosaic Idealize.ShloMosaic.TcCoe Idealize.SL.Sem
open Idealize.ShloMosaic.ValueIdx

namespace Cert.Bridge

open Cert.KernelIdeal Cert.KernelIdeal.Spec Cert.KernelIdeal.Graph Cert.KernelIdeal.Whole
open Cert.ReferenceIdeal.Read

/-! ### The degree column and its halves, read at a row -/

/-- The normalisation as a column, at row p, is the normalisation at p. -/
theorem column_apply (s : (⟨S1600000, .i32⟩ : BufTy).Contents (Elt Ideal)) (p : Fin 100000) :
    column (F := Ideal) s (ix2 p (0 : Fin 1)) = factor (F := Ideal) s (ix1 p) := by
  unfold column
  refine shapeCast_apply (factor (F := Ideal) s) _ (ix2 p (0 : Fin 1)) (ix1 p) ?_
  rw [Shape.rowMajor_val_one, Shape.rowMajor_val_two]
  show p.val = p.val * 1 + 0
  omega

/-- The top half of a column, at row p, is the column at row p. -/
theorem top_apply (s : (⟨S100000x1, .f32⟩ : BufTy).Contents (Elt Ideal)) (p : Fin 50000) (P : Fin 100000) (hP : P.val = p.val) :
    top (F := Ideal) s (ix2 p (0 : Fin 1)) = s (ix2 P (0 : Fin 1)) := by
  unfold top
  refine extractStridedSlice_apply _ s _ (ix2 p (0 : Fin 1)) (ix2 P (0 : Fin 1)) fun a => ?_
  match a with
  | ⟨0, _⟩ => show P.val = 0 + p.val; omega
  | ⟨1, _⟩ => show (0 : Nat) = 0 + 0; rfl

/-- The bottom half of a column, at row p, is the column at row p + 50000. -/
theorem bottom_apply (s : (⟨S100000x1, .f32⟩ : BufTy).Contents (Elt Ideal)) (p : Fin 50000) (P : Fin 100000) (hP : P.val = p.val + 50000) :
    bottom (F := Ideal) s (ix2 p (0 : Fin 1)) = s (ix2 P (0 : Fin 1)) := by
  unfold bottom
  refine extractStridedSlice_apply _ s _ (ix2 p (0 : Fin 1)) (ix2 P (0 : Fin 1)) fun a => ?_
  match a with
  | ⟨0, _⟩ => show P.val = 50000 + p.val; omega
  | ⟨1, _⟩ => show (0 : Nat) = 0 + 0; rfl

/-! ### The stack, read at a row -/

/-- A row among the first 50000 of the stack is the first piece's row. -/
theorem stack_top (a b : (⟨S50000x128, .f32⟩ : BufTy).Contents (Elt Ideal)) (P : Fin 100000) (p : Fin 50000) (q : Fin 128) (hP : P.val = p.val) :
    stack (F := Ideal) a b (ix2 P q) = a (ix2 p q) := by
  unfold stack
  refine concatenate_pair_apply_left (0 : Fin 2) a b _ (ix2 P q) rfl (ix2 p q) fun d => ?_
  match d with
  | ⟨0, _⟩ => show p.val = P.val; omega
  | ⟨1, _⟩ => rfl

/-- A later row of the stack is the second piece's row, 50000 up. -/
theorem stack_bottom (a b : (⟨S50000x128, .f32⟩ : BufTy).Contents (Elt Ideal)) (P : Fin 100000) (p : Fin 50000) (q : Fin 128) (hP : P.val = p.val + 50000) :
    stack (F := Ideal) a b (ix2 P q) = b (ix2 p q) := by
  unfold stack
  refine concatenate_pair_apply_right (0 : Fin 2) a b _ (ix2 P q) rfl rfl (ix2 p q) (fun d hd => ?_) ?_
  · match d with
    | ⟨0, _⟩ => exact absurd rfl hd
    | ⟨1, _⟩ => rfl
  · show p.val + 50000 = P.val; omega

/-! ### The reference's stages, read at an entry -/

/-- The reference's product for the first side, at (p, q). -/
theorem ref_left (x0 : (⟨S50000x128, .f32⟩ : BufTy).Contents (Elt Ideal)) (x2 : (⟨S128x128, .f32⟩ : BufTy).Contents (Elt Ideal)) (p : Fin 50000) (q : Fin 128) :
    val_main_v0 (F := Ideal) x0 x2 (ix2 p q) = ∑ k : Fin 128, x0 (ix2 p k) * x2 (ix2 k q) := by
  rw [val_main_v0_apply]
  refine Finset.sum_congr rfl fun k _ => ?_
  have el : lidx_main_v0 (ix2 p q) k = ix2 p k := funext fun a => by match a with | ⟨0, _⟩ => rfl | ⟨1, _⟩ => rfl
  have er : ridx_main_v0 (ix2 p q) k = ix2 k q := funext fun a => by match a with | ⟨0, _⟩ => rfl | ⟨1, _⟩ => rfl
  rw [el, er]

/-- The reference's product for the second side, at (p, q). -/
theorem ref_right (x1 : (⟨S50000x128, .f32⟩ : BufTy).Contents (Elt Ideal)) (x3 : (⟨S128x128, .f32⟩ : BufTy).Contents (Elt Ideal)) (p : Fin 50000) (q : Fin 128) :
    val_main_v1 (F := Ideal) x1 x3 (ix2 p q) = ∑ k : Fin 128, x1 (ix2 p k) * x3 (ix2 k q) := by
  rw [val_main_v1_apply]
  refine Finset.sum_congr rfl fun k _ => ?_
  have el : lidx_main_v1 (ix2 p q) k = ix2 p k := funext fun a => by match a with | ⟨0, _⟩ => rfl | ⟨1, _⟩ => rfl
  have er : ridx_main_v1 (ix2 p q) k = ix2 k q := funext fun a => by match a with | ⟨0, _⟩ => rfl | ⟨1, _⟩ => rfl
  rw [el, er]

/-- The reference's broadcast out-degree factor, at (p, q), is the factor of row p. -/
theorem ref_out (x4 : (⟨S1600000, .i32⟩ : BufTy).Contents (Elt Ideal)) (p : Fin 100000) (q : Fin 128) :
    val_main_v11 (F := Ideal) x4 (ix2 p q) = factor (F := Ideal) x4 (ix1 p) := by
  rw [val_main_v11_apply, val_main_v10_apply, Cert.Same.factor_out]
  refine congrArg (factor (F := Ideal) x4) (funext fun a => ?_)
  match a with | ⟨0, _⟩ => rfl

/-- The reference's broadcast in-degree factor, at (p, q), is the factor of row p. -/
theorem ref_in (x5 : (⟨S1600000, .i32⟩ : BufTy).Contents (Elt Ideal)) (p : Fin 100000) (q : Fin 128) :
    val_main_v30 (F := Ideal) x5 (ix2 p q) = factor (F := Ideal) x5 (ix1 p) := by
  rw [val_main_v30_apply, val_main_v29_apply, Cert.Same.factor_in]
  refine congrArg (factor (F := Ideal) x5) (funext fun a => ?_)
  match a with | ⟨0, _⟩ => rfl

/-! ### The node features -/

/-- The reference's scaled, stacked products are the kernel's stacked, scaled products. -/
theorem node_eq (x0 x1 : (⟨S50000x128, .f32⟩ : BufTy).Contents (Elt Ideal)) (x2 x3 : (⟨S128x128, .f32⟩ : BufTy).Contents (Elt Ideal))
    (x4 : (⟨S1600000, .i32⟩ : BufTy).Contents (Elt Ideal)) :
    val_main_v12 (F := Ideal) x0 x1 x2 x3 x4 = node x0 x1 x2 x3 x4 := by
  funext i
  obtain ⟨P, q, rfl⟩ : ∃ (P : Fin 100000) (q : Fin 128), i = ix2 P q := ⟨i 0, i 1, eq_ix2 i⟩
  rw [val_main_v12_apply]
  show val_main_v2 (F := Ideal) x0 x1 x2 x3 (ix2 P q) * val_main_v11 (F := Ideal) x4 (ix2 P q) = _
  rw [Cert.Same.stacked, ref_out]
  unfold node
  by_cases hP : P.val < 50000
  · rw [stack_top _ _ P ⟨P.val, hP⟩ q rfl, stack_top _ _ P ⟨P.val, hP⟩ q rfl, ref_left, projScale_apply]
    unfold projAt
    rw [top_apply _ ⟨P.val, hP⟩ P rfl, column_apply]
  · have hlt : P.val < 100000 := P.isLt
    have hp : P.val - 50000 < 50000 := by omega
    have hP' : P.val = (⟨P.val - 50000, hp⟩ : Fin 50000).val + 50000 := by show P.val = P.val - 50000 + 50000; omega
    rw [stack_bottom _ _ P ⟨P.val - 50000, hp⟩ q hP', stack_bottom _ _ P ⟨P.val - 50000, hp⟩ q hP', ref_right, projScale_apply]
    unfold projAt
    rw [bottom_apply _ ⟨P.val - 50000, hp⟩ P hP', column_apply]

/-! ### The result -/

/-- THE BRIDGE: the kernel's result, as a function of the arguments, is the reference's last stage. -/
theorem value_eq (x0 x1 : (⟨S50000x128, .f32⟩ : BufTy).Contents (Elt Ideal)) (x2 x3 : (⟨S128x128, .f32⟩ : BufTy).Contents (Elt Ideal))
    (x4 x5 : (⟨S1600000, .i32⟩ : BufTy).Contents (Elt Ideal)) :
    val_main_v31 (F := Ideal) x0 x1 x2 x3 x4 x5 = value x0 x1 x2 x3 x4 x5 := by
  funext i
  obtain ⟨P, q, rfl⟩ : ∃ (P : Fin 100000) (q : Fin 128), i = ix2 P q := ⟨i 0, i 1, eq_ix2 i⟩
  rw [val_main_v31_apply]
  show val_main_v22 (F := Ideal) x0 x1 x2 x3 x4 x5 (ix2 P q) * val_main_v30 (F := Ideal) x5 (ix2 P q) = _
  rw [Cert.Same.collected, node_eq, ref_in]
  unfold value
  rw [scaleRows_apply]
  unfold scaleAt
  rw [column_apply]

end Cert.Bridge

end
-- ==== Proof.lean ====
/-
  A bipartite graph layer: each side's node features are projected by its weight, every row is scaled by its node's
  out-degree normalisation max(deg, 1)^(-1/2), every node collects the rows of its in-neighbours, and every row is scaled
  by the in-degree normalisation.

  The kernel runs the two projections with their row scaling as two tiled launches of ten row blocks each, leaves the
  collection to the host, and runs the last scaling as a third launch of twenty row blocks; the reference does all of it
  on the host. Over the extended reals a change of float format is the identity and a product accumulated into zero is the
  plain sum of products, so the two programs differ only in WHERE the out-degree factor meets a row (before or after the
  two sides are stacked) and in how the last factor is laid out (a column, or a broadcast): entry by entry they are one
  function of the arguments. No law that could fail at an infinity is used; the finiteness of the inputs is never opened.

  The frames of the two kernel programs are their generated frame certificates; the reference's frame is its generated run
  with the result dropped; the idealisation rewrote nothing, so `preserves` is trivial.
-/
import proofs.«156500_j15788299780622_1_alg».proof.Defs
import proofs.«156500_j15788299780622_1_alg».proof.Proof.Gen.Kernel
import proofs.«156500_j15788299780622_1_alg».proof.Proof.Gen.Kernel.Skeleton
import proofs.«156500_j15788299780622_1_alg».proof.Proof.Gen.Kernel.Launch
import proofs.«156500_j15788299780622_1_alg».proof.Proof.Gen.Kernel.Points
import proofs.«156500_j15788299780622_1_alg».proof.Proof.Gen.Kernel.Frame
import proofs.«156500_j15788299780622_1_alg».proof.Proof.Gen.KernelIdeal
import proofs.«156500_j15788299780622_1_alg».proof.Proof.Gen.KernelIdeal.Skeleton
import proofs.«156500_j15788299780622_1_alg».proof.Proof.Gen.KernelIdeal.Launch
import proofs.«156500_j15788299780622_1_alg».proof.Proof.Gen.KernelIdeal.Points
import proofs.«156500_j15788299780622_1_alg».proof.Proof.Gen.KernelIdeal.Frame
import proofs.«156500_j15788299780622_1_alg».proof.Proof.Gen.ReferenceIdeal
import proofs.«156500_j15788299780622_1_alg».proof.Proof.Gen.Pre_finite_inputs
import proofs.«156500_j15788299780622_1_alg».proof.Proof.Gen.ReferenceIdeal.Run
import proofs.«156500_j15788299780622_1_alg».proof.Proof.Gen.ReferenceIdeal.Read
import proofs.«156500_j15788299780622_1_alg».proof.Proof.Chain
import proofs.«156500_j15788299780622_1_alg».proof.Proof.Bridge
import Idealize.ShloMosaic.Adequacy
import Idealize.ShloMosaic.Init

noncomputable section

namespace Cert.Proof

open Idealize.ShloMosaic Idealize.SL.Sem

/-- The word-level kernel program runs and keeps its arguments. -/
theorem frame_kernel : Cert.frame_Kernel := fun m ρ _ => Cert.Kernel.Gen.frame m ρ

/-- The idealized kernel program runs and keeps its arguments. -/
theorem frame_kernelIdeal : Cert.frame_KernelIdeal := fun m ρ _ => Cert.KernelIdeal.Gen.frame m ρ

/-- The reference runs and keeps its arguments: its run, with the result dropped. -/
theorem frame_reference : Cert.frame_ReferenceIdeal := fun m ρ _ =>
  (θ_run Cert.ReferenceIdeal.defs _ _).mono (fun _ h c => (h c).2) (Cert.ReferenceIdeal.Value.run (F := Ideal) m ρ)

/-- The idealisation rewrote no operation. -/
theorem preserves : Cert.preserves_Kernel_KernelIdeal := trivial

/-- From memories that agree on the six arguments both programs end with the same result array: the kernel's run ends at
    `Whole.value` of its arguments, the reference's at its last stage of its own, and the two are one function. -/
theorem algebraic : Cert.algebraic_KernelIdeal_ReferenceIdeal := by
  intro m ρ m' ρ' _ hagree
  refine ⟨fun c => Cert.KernelIdeal.Whole.value
      (m ((c.tc : Thread Cert.KernelIdeal.nD Cert.KernelIdeal.τ).loc Cert.KernelIdeal.main_arg0))
      (m ((c.tc : Thread Cert.KernelIdeal.nD Cert.KernelIdeal.τ).loc Cert.KernelIdeal.main_arg1))
      (m ((c.tc : Thread Cert.KernelIdeal.nD Cert.KernelIdeal.τ).loc Cert.KernelIdeal.main_arg2))
      (m ((c.tc : Thread Cert.KernelIdeal.nD Cert.KernelIdeal.τ).loc Cert.KernelIdeal.main_arg3))
      (m ((c.tc : Thread Cert.KernelIdeal.nD Cert.KernelIdeal.τ).loc Cert.KernelIdeal.main_arg4))
      (m ((c.tc : Thread Cert.KernelIdeal.nD Cert.KernelIdeal.τ).loc Cert.KernelIdeal.main_arg5)),
    Cert.KernelIdeal.Chain.run m ρ, ?_⟩
  refine (θ_run Cert.ReferenceIdeal.defs _ _).mono (fun _ h c => ⟨(h c).1.trans ?_, (h c).2⟩)
    (Cert.ReferenceIdeal.Value.run (F := Ideal) m' ρ')
  obtain ⟨e0, e1, e2, e3, e4, e5⟩ := hagree c
  rw [e0, e1, e2, e3, e4, e5]
  exact (Cert.ReferenceIdeal.Read.val_main_v31_eq _ _ _ _ _ _).trans (Cert.Bridge.value_eq _ _ _ _ _ _)

theorem claim : Cert.Claim :=
  ⟨Cert.Kernel.Gen.facts, Cert.KernelIdeal.Gen.facts, Cert.ReferenceIdeal.Gen.facts, Cert.Pre_finite_inputs.Gen.facts,
    frame_kernel, frame_kernelIdeal, frame_reference, preserves, algebraic⟩

end Cert.Proof

end
